-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S2002x1024 : Shape := ⟨2, ![2002, 1024]⟩
abbrev S2002 : Shape := ⟨1, ![2002]⟩
abbrev S1024x1024 : Shape := ⟨2, ![1024, 1024]⟩
abbrev S8000x1024 : Shape := ⟨2, ![8000, 1024]⟩
abbrev S256x1024 : Shape := ⟨2, ![256, 1024]⟩
abbrev S20000x256 : Shape := ⟨2, ![20000, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2002x1024 : S_.BroadcastsInDim S2002x1024 (![] : Fin 0 → Fin S2002x1024.rank)
  reducesTo_S2002x1024_S_d0_1 : S2002x1024.ReducesTo [0, 1] S_
  bcast_S_S2002 : S_.BroadcastsInDim S2002 (![] : Fin 0 → Fin S2002.rank)
  reducesTo_S2002_S_d0 : S2002.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8000x1024 : S_.BroadcastsInDim S8000x1024 (![] : Fin 0 → Fin S8000x1024.rank)
  reducesTo_S8000x1024_S_d0_1 : S8000x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S20000x256 : S_.BroadcastsInDim S20000x256 (![] : Fin 0 → Fin S20000x256.rank)
  reducesTo_S20000x256_S_d0_1 : S20000x256.ReducesTo [0, 1] S_

variable [Facts]

def fn_part1 {F : FTy → Type} [FloatOps F] (main_arg5 : FVec F S8000x1024 .f32) (main_arg6 : FVec F S256x1024 .f32) (main_arg7 : FVec F S20000x256 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S8000x1024 .f32 := Host.absf main_arg5
  let main_cst_6 : FVec F S_ .f32 := constant S_ .f32 0x7F800000#32
  let main_v20 : FVec F S8000x1024 .f32 := broadcastInDim S8000x1024 ![] bcast_S_S8000x1024 main_cst_6
  let main_v21 : IVec S8000x1024 1 := cmpf .olt main_v19 main_v20
  let main_c_7 : IVec S_ 1 := constantI S_ 1 1#1
  let main_v22 : IVec S_ 1 := (fun x v => Host.reduce IntOp.andi x v reducesTo_S8000x1024_S_d0_1 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S20000x256 .f32 := Host.absf main_arg7
  let main_cst_10 : FVec F S_ .f32 := constant S_ .f32 0x7F800000#32
  let main_v30 : FVec F S20000x256 .f32 := broadcastInDim S20000x256 ![] bcast_S_S20000x256 main_cst_10
  let main_v31 : IVec S20000x256 1 := cmpf .olt main_v29 main_v30
  let main_c_11 : IVec S_ 1 := constantI S_ 1 1#1
  let main_v32 : IVec S_ 1 := (fun x v => Host.reduce IntOp.andi x v reducesTo_S20000x256_S_d0_1 h_S_) main_v31 main_c_11
  let main_v33 : IVec S_ 1 := andi main_v28 main_v32
  main_v33

def fn {F : FTy → Type} [FloatOps F] (main_arg0 : FVec F S8192x1024 .f32) (main_arg1 : IVec S8192 32) (main_arg2 : FVec F S2002x1024 .f32) (main_arg3 : FVec F S2002 .f32) (main_arg4 : FVec F S1024x1024 .f32) (main_arg5 : FVec F S8000x1024 .f32) (main_arg6 : FVec F S256x1024 .f32) (main_arg7 : FVec F S20000x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2002x1024 .f32 := Host.absf main_arg2
  let main_cst_0 : FVec F S_ .f32 := constant S_ .f32 0x7F800000#32
  let main_v5 : FVec F S2002x1024 .f32 := broadcastInDim S2002x1024 ![] bcast_S_S2002x1024 main_cst_0
  let main_v6 : IVec S2002x1024 1 := cmpf .olt main_v4 main_v5
  let main_c_1 : IVec S_ 1 := constantI S_ 1 1#1
  let main_v7 : IVec S_ 1 := (fun x v => Host.reduce IntOp.andi x v reducesTo_S2002x1024_S_d0_1 h_S_) main_v6 main_c_1
  let main_v8 : IVec S_ 1 := andi main_v3 main_v7
  let main_v9 : FVec F S2002 .f32 := Host.absf main_arg3
  let main_cst_2 : FVec F S_ .f32 := constant S_ .f32 0x7F800000#32
  let main_v10 : FVec F S2002 .f32 := broadcastInDim S2002 ![] bcast_S_S2002 main_cst_2
  let main_v11 : IVec S2002 1 := cmpf .olt main_v9 main_v10
  let main_c_3 : IVec S_ 1 := constantI S_ 1 1#1
  let main_v12 : IVec S_ 1 := (fun x v => Host.reduce IntOp.andi x v reducesTo_S2002_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S8192x1024 : Shape := ⟨2, ![8192, 1024]⟩
abbrev S8192 : Shape := ⟨1, ![8192]⟩
abbrev S2002x1024 : Shape := ⟨2, ![2002, 1024]⟩
abbrev S2002 : Shape := ⟨1, ![2002]⟩
abbrev S1024x1024 : Shape := ⟨2, ![1024, 1024]⟩
abbrev S8000x1024 : Shape := ⟨2, ![8000, 1024]⟩
abbrev S256x1024 : Shape := ⟨2, ![256, 1024]⟩
abbrev S20000x256 : Shape := ⟨2, ![20000, 256]⟩
abbrev S_ : Shape := ⟨0, ![]⟩
abbrev S8192x1 : Shape := ⟨2, ![8192, 1]⟩
abbrev S1x2002 : Shape := ⟨2, ![1, 2002]⟩
abbrev S8192x2002 : Shape := ⟨2, ![8192, 2002]⟩
abbrev S512x1024 : Shape := ⟨2, ![512, 1024]⟩
abbrev S512x2002 : Shape := ⟨2, ![512, 2002]⟩
abbrev S8192x8000 : Shape := ⟨2, ![8192, 8000]⟩
abbrev S128x1024 : Shape := ⟨2, ![128, 1024]⟩
abbrev S128x1 : Shape := ⟨2, ![128, 1]⟩
abbrev S128x8000 : Shape := ⟨2, ![128, 8000]⟩
abbrev S8192x20000 : Shape := ⟨2, ![8192, 20000]⟩
abbrev S64x1024 : Shape := ⟨2, ![64, 1024]⟩
abbrev S64x1 : Shape := ⟨2, ![64, 1]⟩
abbrev S64x20000 : Shape := ⟨2, ![64, 20000]⟩
abbrev S64x256 : Shape := ⟨2, ![64, 256]⟩

abbrev nBuf : Space → Nat
  | .hbm => 35
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S2002x1024, .f32⟩
  | .hbm, ⟨3, _⟩ => ⟨S2002, .f32⟩
  | .hbm, ⟨4, _⟩ => ⟨S1024x1024, .f32⟩
  | .hbm, ⟨5, _⟩ => ⟨S8000x1024, .f32⟩
  | .hbm, ⟨6, _⟩ => ⟨S256x1024, .f32⟩
  | .hbm, ⟨7, _⟩ => ⟨S20000x256, .f32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .i1⟩
  | .hbm, ⟨15, _⟩ => ⟨S8192, .f32⟩
  | .hbm, ⟨16, _⟩ => ⟨S8192x1, .f32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i1⟩
  | .hbm, ⟨24, _⟩ => ⟨S8192, .f32⟩
  | .hbm, ⟨25, _⟩ => ⟨S8192x1, .f32⟩
  | .hbm, ⟨26, _⟩ => ⟨S2002x1024, .bf16⟩
  | .hbm, ⟨27, _⟩ => ⟨S1024x1024, .bf16⟩
  | .hbm, ⟨28, _⟩ => ⟨S8000x1024, .bf16⟩
  | .hbm, ⟨29, _⟩ => ⟨S256x1024, .bf16⟩
  | .hbm, ⟨30, _⟩ => ⟨S20000x256, .bf16⟩
  | .hbm, ⟨31, _⟩ => ⟨S1x2002, .f32⟩
  | .hbm, ⟨32, _⟩ => ⟨S8192x2002, .f32⟩
  | .hbm, ⟨33, _⟩ => ⟨S8192x8000, .f32⟩
  | .hbm, ⟨34, _⟩ => ⟨S8192x20000, .f32⟩
  | .local _ .vmem, ⟨0, _⟩ => ⟨S512x1024, .f32⟩
  | .local _ .vmem, ⟨1, _⟩ => ⟨S512x1024, .f32⟩
  | .local _ .vmem, ⟨2, _⟩ => ⟨S2002x1024, .bf16⟩
  | .local _ .vmem, ⟨3, _⟩ => ⟨S1x2002, .f32⟩
  | .local _ .vmem, ⟨4, _⟩ => ⟨S512x2002, .f32⟩
  | .local _ .vmem, ⟨5, _⟩ => ⟨S512x2002, .f32⟩
  | .local _ .vmem, ⟨6, _⟩ => ⟨S128x1024, .f32⟩
  | .local _ .vmem, ⟨7, _⟩ => ⟨S128x1024, .f32⟩
  | .local _ .vmem, ⟨8, _⟩ => ⟨S1024x1024, .bf16⟩
  | .local _ .vmem, ⟨9, _⟩ => ⟨S8000x1024, .bf16⟩
  | .local _ .vmem, ⟨10, _⟩ => ⟨S128x1, .f32⟩
  | .local _ .vmem, ⟨11, _⟩ => ⟨S128x1, .f32⟩
  | .local _ .vmem, ⟨12, _⟩ => ⟨S128x8000, .f32⟩
  | .local _ .vmem, ⟨13, _⟩ => ⟨S128x8000, .f32⟩
  | .local _ .vmem, ⟨14, _⟩ => ⟨S64x1024, .f32⟩
  | .local _ .vmem, ⟨15, _⟩ => ⟨S64x1024, .f32⟩
  | .local _ .vmem, ⟨16, _⟩ => ⟨S256x1024, .bf16⟩
  | .local _ .vmem, ⟨17, _⟩ => ⟨S20000x256, .bf16⟩
  | .local _ .vmem, ⟨18, _⟩ => ⟨S64x1, .f32⟩
  | .local _ .vmem, ⟨19, _⟩ => ⟨S64x1, .f32⟩
  | .local _ .vmem, ⟨20, _⟩ => ⟨S64x20000, .f32⟩
  | .local _ .vmem, ⟨21, _⟩ => ⟨S64x20000, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2002x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2002 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2002 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8000x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x8000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S20000x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x20000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S8192 : S_.BroadcastsInDim S8192 (![] : Fin 0 → Fin S8192.rank)
  shapeCasts_S8192_S8192x1 : S8192.ShapeCasts S8192x1
  bitsLt_bf16_f32 : FTy.bits .bf16 < FTy.bits .f32
  shapeCasts_S2002_S1x2002 : S2002.ShapeCasts S1x2002
  inb_S512x1024_S512x1024_0_0 : ∀ a, (![0, 0] : Fin 2 → Nat) a + S512x1024.size a ≤ S512x1024.size a
  h_S512x1024 : 0 < S512x1024.numel
  inb_S2002x1024_S2002x1024_0_0 : ∀ a, (![0, 0] : Fin 2 → Nat) a + S2002x1024.size a ≤ S2002x1024.size a
  h_S2002x1024 : 0 < S2002x1024.numel
  shapeCasts_S2002x1024_S2002x1024 : S2002x1024.ShapeCasts S2002x1024
  inb_S1x2002_S1x2002_0_0 : ∀ a, (![0, 0] : Fin 2 → Nat) a + S1x2002.size a ≤ S1x2002.size a
  h_S1x2002 : 0 < S1x2002.numel
  shapeCasts_S1x2002_S1x2002 : S1x2002.ShapeCasts S1x2002
  broadcasts_S1x2002_S512x2002 : S1x2002.Broadcasts S512x2002
  inb_S512x2002_S512x2002_0_0 : ∀ a, (![0, 0] : Fin 2 → Nat) a + S512x2002.size a ≤ S512x2002.size a
  h_S512x2002 : 0 < S512x2002.numel
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S8000x1024_S8000x1024_0_0 : ∀ a, (![0, 0] : Fin 2 → Nat) a + S8000x1024.size a ≤ S8000x1024.size a
  h_S8000x1024 : 0 < S8000x1024.numel
  shapeCasts_S8000x1024_S8000x1024 : S8000x1024.ShapeCasts S8000x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8000 : S128x1.Broadcasts S128x8000
  inb_S128x8000_S128x8000_0_0 : ∀ a, (![0, 0] : Fin 2 → Nat) a + S128x8000.size a ≤ S128x8000.size a
  h_S128x8000 : 0 < S128x8000.numel
  inb_S64x1024_S64x1024_0_0 : ∀ a, (![0, 0] : Fin 2 → Nat) a + S64x1024.size a ≤ S64x1024.size a
  h_S64x1024 : 0 < S64x1024.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S20000x256_S20000x256_0_0 : ∀ a, (![0, 0] : Fin 2 → Nat) a + S20000x256.size a ≤ S20000x256.size a
  h_S20000x256 : 0 < S20000x256.numel
  shapeCasts_S20000x256_S20000x256 : S20000x256.ShapeCasts S20000x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x20000 : S64x1.Broadcasts S64x20000
  inb_S64x20000_S64x20000_0_0 : ∀ a, (![0, 0] : Fin 2 → Nat) a + S64x20000.size a ≤ S64x20000.size a
  h_S64x20000 : 0 < S64x20000.numel
  dot_S512x1024_S2002x1024_S512x2002_1_1_0_0_n_n_wf : DotDims.WF S512x1024 S2002x1024 S512x2002 [1] [1] [0] [0] [] []
  dot_S128x1024_S1024x1024_S128x1024_1_1_0_0_n_n_wf : DotDims.WF S128x1024 S1024x1024 S128x1024 [1] [1] [0] [0] [] []
  dot_S128x1024_S8000x1024_S128x8000_1_1_0_0_n_n_wf : DotDims.WF S128x1024 S8000x1024 S128x8000 [1] [1] [0] [0] [] []
  dot_S64x1024_S256x1024_S64x256_1_1_0_0_n_n_wf : DotDims.WF S64x1024 S256x1024 S64x256 [1] [1] [0] [0] [] []
  dot_S64x256_S20000x256_S64x20000_1_1_0_0_n_n_wf : DotDims.WF S64x256 S20000x256 S64x20000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2002x1024.size a ≤ S2002x1024.size a
  hwx0_1 : ∀ i : grid0.Coords, EltTy.bits .bf16 = 32 ∨ (Rect.block (s := S2002x1024) S2002x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2002.size a ≤ S1x2002.size a
  hwx0_2 : ∀ i : grid0.Coords, EltTy.bits .f32 = 32 ∨ (Rect.block (s := S1x2002) S1x2002.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2002.size a ≤ S8192x2002.size a
  hwx0_3 : ∀ i : grid0.Coords, EltTy.bits .f32 = 32 ∨ (Rect.block (s := S8192x2002) S512x2002.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S8192x1024.size a
  hwx1_0 : ∀ i : grid1.Coords, EltTy.bits .f32 = 32 ∨ (Rect.block (s := S8192x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8000x1024.size a ≤ S8000x1024.size a
  hwx1_2 : ∀ i : grid1.Coords, EltTy.bits .bf16 = 32 ∨ (Rect.block (s := S8000x1024) S8000x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S8192x1.size a
  hwx1_3 : ∀ i : grid1.Coords, EltTy.bits .f32 = 32 ∨ (Rect.block (s := S8192x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x8000.size a ≤ S8192x8000.size a
  hwx1_4 : ∀ i : grid1.Coords, EltTy.bits .f32 = 32 ∨ (Rect.block (s := S8192x8000) S128x8000.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S8192x1024.size a
  hwx2_0 : ∀ i : grid2.Coords, EltTy.bits .f32 = 32 ∨ (Rect.block (s := S8192x1024) S64x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x1024.size a
  hwx2_1 : ∀ i : grid2.Coords, EltTy.bits .bf16 = 32 ∨ (Rect.block (s := S256x1024) S256x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S20000x256.size a ≤ S20000x256.size a
  hwx2_2 : ∀ i : grid2.Coords, EltTy.bits .bf16 = 32 ∨ (Rect.block (s := S20000x256) S20000x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S8192x1.size a
  hwx2_3 : ∀ i : grid2.Coords, EltTy.bits .f32 = 32 ∨ (Rect.block (s := S8192x1) S64x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x20000.size a ≤ S8192x20000.size a
  hwx2_4 : ∀ i : grid2.Coords, EltTy.bits .f32 = 32 ∨ (Rect.block (s := S8192x20000) S64x20000.size (cc2_transform_4 i) (hinb2_4 i)).WholeWords (EltTy.packing .f32)

variable [Facts₀]

def dot_S512x1024_S2002x1024_S512x2002_1_1_0_0_n_n : DotDims S512x1024 S2002x1024 S512x2002 where
  lhsContracting := [1]
  rhsContracting := [1]
  lhsNonContracting := [0]
  rhsNonContracting := [0]
  lhsBatch := []
  rhsBatch := []
  wf := dot_S512x1024_S2002x1024_S512x2002_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S8000x1024_S128x8000_1_1_0_0_n_n : DotDims S128x1024 S8000x1024 S128x8000 where
  lhsContracting := [1]
  rhsContracting := [1]
  lhsNonContracting := [0]
  rhsNonContracting := [0]
  lhsBatch := []
  rhsBatch := []
  wf := dot_S128x1024_S8000x1024_S128x8000_1_1_0_0_n_n_wf
def dot_S64x1024_S256x1024_S64x256_1_1_0_0_n_n : DotDims S64x1024 S256x1024 S64x256 where
  lhsContracting := [1]
  rhsContracting := [1]
  lhsNonContracting := [0]
  rhsNonContracting := [0]
  lhsBatch := []
  rhsBatch := []
  wf := dot_S64x1024_S256x1024_S64x256_1_1_0_0_n_n_wf
def dot_S64x256_S20000x256_S64x20000_1_1_0_0_n_n : DotDims S64x256 S20000x256 S64x20000 where
  lhsContracting := [1]
  rhsContracting := [1]
  lhsNonContracting := [0]
  rhsNonContracting := [0]
  lhsBatch := []
  rhsBatch := []
  wf := dot_S64x256_S20000x256_S64x20000_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2002x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x2002.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S512x2002.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S8000x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x8000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S64x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S256x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S20000x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S64x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S64x20000.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S8192 : Shape := ⟨1, ![8192]⟩
abbrev S2002x1024 : Shape := ⟨2, ![2002, 1024]⟩
abbrev S2002 : Shape := ⟨1, ![2002]⟩
abbrev S1024x1024 : Shape := ⟨2, ![1024, 1024]⟩
abbrev S8000x1024 : Shape := ⟨2, ![8000, 1024]⟩
abbrev S256x1024 : Shape := ⟨2, ![256, 1024]⟩
abbrev S20000x256 : Shape := ⟨2, ![20000, 256]⟩
abbrev S1024x2002 : Shape := ⟨2, ![1024, 2002]⟩
abbrev S8192x2002 : Shape := ⟨2, ![8192, 2002]⟩
abbrev S1x2002 : Shape := ⟨2, ![1, 2002]⟩
abbrev S_ : Shape := ⟨0, ![]⟩
abbrev S1024x8000 : Shape := ⟨2, ![1024, 8000]⟩
abbrev S8192x8000 : Shape := ⟨2, ![8192, 8000]⟩
abbrev S8192x1 : Shape := ⟨2, ![8192, 1]⟩
abbrev S1024x256 : Shape := ⟨2, ![1024, 256]⟩
abbrev S8192x256 : Shape := ⟨2, ![8192, 256]⟩
abbrev S256x20000 : Shape := ⟨2, ![256, 20000]⟩
abbrev S8192x20000 : Shape := ⟨2, ![8192, 20000]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S2002x1024, .f32⟩
  | .hbm, ⟨3, _⟩ => ⟨S2002, .f32⟩
  | .hbm, ⟨4, _⟩ => ⟨S1024x1024, .f32⟩
  | .hbm, ⟨5, _⟩ => ⟨S8000x1024, .f32⟩
  | .hbm, ⟨6, _⟩ => ⟨S256x1024, .f32⟩
  | .hbm, ⟨7, _⟩ => ⟨S20000x256, .f32⟩
  | .hbm, ⟨8, _⟩ => ⟨S1024x2002, .f32⟩
  | .hbm, ⟨9, _⟩ => ⟨S8192x2002, .f32⟩
  | .hbm, ⟨10, _⟩ => ⟨S1x2002, .f32⟩
  | .hbm, ⟨11, _⟩ => ⟨S8192x2002, .f32⟩
  | .hbm, ⟨12, _⟩ => ⟨S8192x2002, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i1⟩
  | .hbm, ⟨20, _⟩ => ⟨S8192, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S8192, .f32⟩
  | .hbm, ⟨29, _⟩ => ⟨S1024x1024, .f32⟩
  | .hbm, ⟨30, _⟩ => ⟨S8192x1024, .f32⟩
  | .hbm, ⟨31, _⟩ => ⟨S1024x8000, .f32⟩
  | .hbm, ⟨32, _⟩ => ⟨S8192x8000, .f32⟩
  | .hbm, ⟨33, _⟩ => ⟨S8192x1, .f32⟩
  | .hbm, ⟨34, _⟩ => ⟨S8192x8000, .f32⟩
  | .hbm, ⟨35, _⟩ => ⟨S8192x8000, .f32⟩
  | .hbm, ⟨36, _⟩ => ⟨S1024x256, .f32⟩
  | .hbm, ⟨37, _⟩ => ⟨S8192x256, .f32⟩
  | .hbm, ⟨38, _⟩ => ⟨S256x20000, .f32⟩
  | .hbm, ⟨39, _⟩ => ⟨S8192x20000, .f32⟩
  | .hbm, ⟨40, _⟩ => ⟨S8192x1, .f32⟩
  | .hbm, ⟨41, _⟩ => ⟨S8192x20000, .f32⟩
  | .hbm, ⟨42, _⟩ => ⟨S8192x20000, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S2002x1024_S1024x2002_1_0 : S2002x1024.Transposes [1, 0] S1024x2002
  bcast_S2002_S1x2002_1 : S2002.BroadcastsInDim S1x2002 (![1] : Fin 1 → Fin S1x2002.rank)
  bcast_S1x2002_S8192x2002_0_1 : S1x2002.BroadcastsInDim S8192x2002 (![0, 1] : Fin 2 → Fin S8192x2002.rank)
  bcast_S_S8192 : S_.BroadcastsInDim S8192 (![] : Fin 0 → Fin S8192.rank)
  transposes_S1024x1024_S1024x1024_1_0 : S1024x1024.Transposes [1, 0] S1024x1024
  transposes_S8000x1024_S1024x8000_1_0 : S8000x1024.Transposes [1, 0] S1024x8000
  bcast_S8192_S8192x1_0 : S8192.BroadcastsInDim S8192x1 (![0] : Fin 1 → Fin S8192x1.rank)
  bcast_S8192x1_S8192x8000_0_1 : S8192x1.BroadcastsInDim S8192x8000 (![0, 1] : Fin 2 → Fin S8192x8000.rank)
  transposes_S256x1024_S1024x256_1_0 : S256x1024.Transposes [1, 0] S1024x256
  transposes_S20000x256_S256x20000_1_0 : S20000x256.Transposes [1, 0] S256x20000
  bcast_S8192x1_S8192x20000_0_1 : S8192x1.BroadcastsInDim S8192x20000 (![0, 1] : Fin 2 → Fin S8192x20000.rank)
  dot_S8192x1024_S1024x2002_S8192x2002_1_0_0_1_n_n_wf : DotDims.WF S8192x1024 S1024x2002 S8192x2002 [1] [0] [0] [1] [] []
  dot_S8192x1024_S1024x1024_S8192x1024_1_0_0_1_n_n_wf : DotDims.WF S8192x1024 S1024x1024 S8192x1024 [1] [0] [0] [1] [] []
  dot_S8192x1024_S1024x8000_S8192x8000_1_0_0_1_n_n_wf : DotDims.WF S8192x1024 S1024x8000 S8192x8000 [1] [0] [0] [1] [] []
  dot_S8192x1024_S1024x256_S8192x256_1_0_0_1_n_n_wf : DotDims.WF S8192x1024 S1024x256 S8192x256 [1] [0] [0] [1] [] []
  dot_S8192x256_S256x20000_S8192x20000_1_0_0_1_n_n_wf : DotDims.WF S8192x256 S256x20000 S8192x20000 [1] [0] [0] [1] [] []

variable [Facts₀]

def dot_S8192x1024_S1024x2002_S8192x2002_1_0_0_1_n_n : DotDims S8192x1024 S1024x2002 S8192x2002 where
  lhsContracting := [1]
  rhsContracting := [0]
  lhsNonContracting := [0]
  rhsNonContracting := [1]
  lhsBatch := []
  rhsBatch := []
  wf := dot_S8192x1024_S1024x2002_S8192x2002_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8000_S8192x8000_1_0_0_1_n_n : DotDims S8192x1024 S1024x8000 S8192x8000 where
  lhsContracting := [1]
  rhsContracting := [0]
  lhsNonContracting := [0]
  rhsNonContracting := [1]
  lhsBatch := []
  rhsBatch := []
  wf := dot_S8192x1024_S1024x8000_S8192x8000_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x20000_S8192x20000_1_0_0_1_n_n : DotDims S8192x256 S256x20000 S8192x20000 where
  lhsContracting := [1]
  rhsContracting := [0]
  lhsNonContracting := [0]
  rhsNonContracting := [1]
  lhsBatch := []
  rhsBatch := []
  wf := dot_S8192x256_S256x20000_S8192x20000_1_0_0_1_n_n_wf

class Facts : Prop extends Facts₀ where

variable [Facts]
-- ==== Proof.LibStackDots.lean ====
/-
  Matrix products with a transposed operand, alone and over a stack, read at a row and a column.

  A matrix product accumulated into zeros, and the host's `dot_general` over a stack of matrices, are read
  on the extended reals at one output entry as the sum over the contracted coordinate `t` of the products of the
  two operands' entries. Which axis of each operand is contracted decides where `t` sits in each operand's index:
  with the left operand transposed (`Aᵀ B`) it is the left operand's ROW, `Σₜ A[t, p] · B[t, q]`; with neither
  transposed (`A B`) `Σₜ A[p, t] · B[t, q]`; with the right operand transposed (`A Bᵀ`) it is the right
  operand's COLUMN, `Σₜ A[p, t] · B[q, t]`. Over a stack the leading coordinate `g` is carried by both operands
  and the result. In each case the accumulator (if any) contributes `0`, and the sum over the one-axis contraction
  index is re-indexed by that axis's coordinate.
-/
import Idealize.ShloMosaic.PureOps.Ideal.Laws
import Idealize.ShloMosaic.Lib.ValueIdx

noncomputable section

open scoped BigOperators

namespace Idealize.ShloMosaic.StackDots

open Idealize.ShloMosaic Idealize.ShloMosaic.ValueIdx

/-! ## One matrix product into zeros -/

/-- `Aᵀ B` for a `K × M` matrix `A` and a `K × N` matrix `B` (both contracted on their rows), into zeros, at row `p`
    and column `q`, is `Σₜ A[t, p] · B[t, q]`. -/
theorem matmul_tn_zero_apply {φ₁ φ₂ : FTy} {M K N : Nat}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (p : Fin M) (q : Fin N) :
    FloatOps.matmul (⟨[0], [0], [1], [1], [], [], w⟩ : DotDims ⟨2, ![K, M]⟩ ⟨2, ![K, N]⟩ ⟨2, ![M, N]⟩) prec A B (constant ⟨2, ![M, N]⟩ .f32 0x00000000#32) (ix2 p q)
      = ∑ t : Fin K, A (ix2 t p) * B (ix2 t q) := by
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun t _ => ?_
  have c := contrEquiv1_symm_val (⟨[0], [0], [1], [1], [], [], w⟩ : DotDims ⟨2, ![K, M]⟩ ⟨2, ![K, N]⟩ ⟨2, ![M, N]⟩) K rfl rfl t
  have l : (⟨[0], [0], [1], [1], [], [], w⟩ : DotDims ⟨2, ![K, M]⟩ ⟨2, ![K, N]⟩ ⟨2, ![M, N]⟩).lhsIdx (ix2 p q)
      ((contrEquiv1 _ K rfl rfl).symm t) = ix2 t p := by
    funext ax; apply Fin.ext
    match ax with
    | ⟨0, _⟩ => simp [DotDims.lhsIdx]; exact c
    | ⟨1, _⟩ => simp [DotDims.lhsIdx]; rfl
  have r : (⟨[0], [0], [1], [1], [], [], w⟩ : DotDims ⟨2, ![K, M]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A B` for an `M × K` matrix `A` and a `K × N` matrix `B` (the left operand's columns contracted with the right
    operand's rows), into zeros, at row `p` and column `q`, is `Σₜ A[p, t] · B[t, q]`. -/
theorem matmul_nn_zero_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    FloatOps.matmul (⟨[1], [0], [0], [1], [], [], w⟩ : DotDims ⟨2, ![M, K]⟩ ⟨2, ![K, N]⟩ ⟨2, ![M, N]⟩) prec A B (constant ⟨2, ![M, N]⟩ .f32 0x00000000#32) (ix2 p q)
      = ∑ t : Fin K, A (ix2 p t) * B (ix2 t q) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A Bᵀ` for an `M × K` matrix `A` and an `N × K` matrix `B` (both contracted on their columns), into zeros, at row
    `p` and column `q`, is `Σₜ A[p, t] · B[q, t]`. -/
theorem matmul_nt_zero_apply {φ₁ φ₂ : FTy} {M K N : Nat}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec A B (constant ⟨2, ![M, N]⟩ .f32 0x00000000#32) (ix2 p q)
      = ∑ t : Fin K, A (ix2 p t) * B (ix2 q t) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun t _ => ?_
  have c := contrEquiv1_symm_val (⟨[1], [1], [0], [0], [], [], w⟩ : DotDims ⟨2, ![M, K]⟩ ⟨2, ![N, K]⟩ ⟨2, ![M, N]⟩) K rfl rfl t
  have l : (⟨[1], [1], [0], [0], [], [], w⟩ : DotDims ⟨2, ![M, K]⟩ ⟨2, ![N, K]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [1], [0], [0], [], [], w⟩ : DotDims ⟨2, ![M, K]⟩ ⟨2, ![N, K]⟩ ⟨2, ![M, N]⟩).rhsIdx (ix2 p q)
      ((contrEquiv1 _ K rfl rfl).symm t) = ix2 q t := by
    funext ax; apply Fin.ext
    match ax with
    | ⟨0, _⟩ => simp [DotDims.rhsIdx]; rfl
    | ⟨1, _⟩ => simp [DotDims.rhsIdx]; exact c
  rw [l, r]

/-! ## The product of two stacks, matrix by matrix -/

/-- `Aᵀ B` member by member, for a stack of `K × M` matrices and a stack of `K × N` matrices (batch axes 0 and 0, each
    member contracted on its rows): at member `g`, row `p` and column `q` it is `Σₜ A[g, t, p] · B[g, t, q]`. -/
theorem dotGeneral_stack_tn_apply {φ₁ φ₂ : FTy} {G M K N : Nat}
    (w : DotDims.WF ⟨3, ![G, K, M]⟩ ⟨3, ![G, K, N]⟩ ⟨3, ![G, M, N]⟩ [1] [1] [2] [2] [0] [0])
    (prec : Option ContractPrecision) (A : FVec Ideal ⟨3, ![G, K, M]⟩ φ₁) (B : FVec Ideal ⟨3, ![G, K, N]⟩ φ₂) (g : Fin G) (p : Fin M) (q : Fin N) :
    Host.dotGeneral (⟨[1], [1], [2], [2], [0], [0], w⟩ : DotDims ⟨3, ![G, K, M]⟩ ⟨3, ![G, K, N]⟩ ⟨3, ![G, M, N]⟩) prec A B (ix3 g p q)
      = ∑ t : Fin K, A (ix3 g t p) * B (ix3 g t q) := by
  show FloatOps.dotGeneral _ prec _ A B (ix3 g p q) = _
  rw [Ideal.dotGeneral_apply,
    ← Equiv.sum_comp (contrEquiv1 (⟨[1], [1], [2], [2], [0], [0], w⟩ : DotDims ⟨3, ![G, K, M]⟩ ⟨3, ![G, K, N]⟩ ⟨3, ![G, M, N]⟩) K rfl rfl).symm]
  refine Finset.sum_congr rfl fun t _ => ?_
  have c := contrEquiv1_symm_val (⟨[1], [1], [2], [2], [0], [0], w⟩ : DotDims ⟨3, ![G, K, M]⟩ ⟨3, ![G, K, N]⟩ ⟨3, ![G, M, N]⟩) K rfl rfl t
  have l : (⟨[1], [1], [2], [2], [0], [0], w⟩ : DotDims ⟨3, ![G, K, M]⟩ ⟨3, ![G, K, N]⟩ ⟨3, ![G, M, N]⟩).lhsIdx (ix3 g p q)
      ((contrEquiv1 _ K rfl rfl).symm t) = ix3 g t p := by
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  have r : (⟨[1], [1], [2], [2], [0], [0], w⟩ : DotDims ⟨3, ![G, K, M]⟩ ⟨3, ![G, K, N]⟩ ⟨3, ![G, M, N]⟩).rhsIdx (ix3 g p q)
      ((contrEquiv1 _ K rfl rfl).symm t) = ix3 g t q := by
    funext ax; apply Fin.ext
    match ax with
    | ⟨0, _⟩ => simp [DotDims.rhsIdx]; rfl
    | ⟨1, _⟩ => simp [DotDims.rhsIdx]; exact c
    | ⟨2, _⟩ => simp [DotDims.rhsIdx]; rfl
  rw [l, r]

/-- `A Bᵀ` member by member, for a stack of `M × K` matrices and a stack of `N × K` matrices (batch axes 0 and 0, each
    member contracted on its columns): at member `g`, row `p` and column `q` it is `Σₜ A[g, p, t] · B[g, q, t]`. -/
theorem dotGeneral_stack_nt_apply {φ₁ φ₂ : FTy} {G M K N : Nat}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂) (g : Fin G) (p : Fin M) (q : Fin N) :
    Host.dotGeneral (⟨[2], [2], [1], [1], [0], [0], w⟩ : DotDims ⟨3, ![G, M, K]⟩ ⟨3, ![G, N, K]⟩ ⟨3, ![G, M, N]⟩) prec A B (ix3 g p q)
      = ∑ t : Fin K, A (ix3 g p t) * B (ix3 g q t) := by
  show FloatOps.dotGeneral _ prec _ A B (ix3 g p q) = _
  rw [Ideal.dotGeneral_apply,
    ← Equiv.sum_comp (contrEquiv1 (⟨[2], [2], [1], [1], [0], [0], w⟩ : DotDims ⟨3, ![G, M, K]⟩ ⟨3, ![G, N, K]⟩ ⟨3, ![G, M, N]⟩) K rfl rfl).symm]
  refine Finset.sum_congr rfl fun t _ => ?_
  have c := contrEquiv1_symm_val (⟨[2], [2], [1], [1], [0], [0], w⟩ : DotDims ⟨3, ![G, M, K]⟩ ⟨3, ![G, N, K]⟩ ⟨3, ![G, M, N]⟩) K rfl rfl t
  have l : (⟨[2], [2], [1], [1], [0], [0], w⟩ : DotDims ⟨3, ![G, M, K]⟩ ⟨3, ![G, N, K]⟩ ⟨3, ![G, M, N]⟩).lhsIdx (ix3 g p q)
      ((contrEquiv1 _ K rfl rfl).symm t) = ix3 g p t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  have r : (⟨[2], [2], [1], [1], [0], [0], w⟩ : DotDims ⟨3, ![G, M, K]⟩ ⟨3, ![G, N, K]⟩ ⟨3, ![G, M, N]⟩).rhsIdx (ix3 g p q)
      ((contrEquiv1 _ K rfl rfl).symm t) = ix3 g q t := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c
  rw [l, r]

end Idealize.ShloMosaic.StackDots

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.LibRowSums.lean ====
/-
  Row sums kept as a column, read at coordinates.

  `jnp.sum(x, axis=-1, keepdims=True)` of an `a × b` matrix is a lane reduction into a vector of length `a`,
  recast as an `a × 1` column; a kernel then either broadcasts the column along the rows of an `a × c`
  matrix, or transposes it to a `1 × a` row first. Read on the extended reals at explicit coordinates:
  the reduction at `p` is `Σₖ x[p, k]` over `k : Fin b`; the column at `(p, u)` is the vector at `p`; the
  column broadcast at `(p, q)` is the column at `(p, 0)`.
-/
import Idealize.ShloMosaic.PureOps.Ideal.Laws
import Idealize.ShloMosaic.Lib.ValueIdx
import Idealize.ShloMosaic.Lib.Pipeline.Value

noncomputable section

open scoped BigOperators

namespace Idealize.ShloMosaic.RowSums

open Idealize.ShloMosaic Idealize.ShloMosaic.ValueIdx

variable {α : Type}

/-- A length-`a` vector recast as an `a × 1` column reads, at `(p, u)`, the vector at `p`: both sit at
    row-major position `p`, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast along the rows of an `a × c` matrix reads, at `(p, q)`, the column at `(p, 0)`. -/
theorem broadcastTo_a1_ac_apply {a c : ℕ} (v : (⟨2, ![a, 1]⟩ : Shape).Idx → α) (h : (⟨2, ![a, 1]⟩ : Shape).Broadcasts ⟨2, ![a, c]⟩)
    (p : Fin a) (q : Fin c) : broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A lane reduction by `+` from the zero word of an `a × b` matrix over its second axis reads, at `p`, the sum
    `Σₖ x[p, k]` over `k : Fin b`: the index lifted from `p` with `k` inserted on the reduced axis is `(p, k)`. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x (funext fun d => Fin.ext ?_)
  match d with
  | ⟨0, _⟩ => rfl
  | ⟨1, _⟩ => rfl

end Idealize.ShloMosaic.RowSums

end
-- ==== Proof.KernelBlocks.lean ====
/-
  What each of the three kernel bodies stores, read at one entry of its block, on the extended reals.

  The head body multiplies its block of rows by the transposed weight matrix and adds the bias row:
  at row `p`, column `q` the stored value is `Σₜ x[p, t] · w[q, t] + b[0, q]`. Each tail body multiplies twice and
  scales every row by its gate: `(Σₕ (Σₜ x[p, t] · w₁[h, t]) · w₂[q, h]) · g[p, 0]`. On the extended reals the
  changes of float format are the identity and a product accumulated into zeros is the plain sum, so nothing else
  is left of the bodies.
-/
import proofs.«159933_j25168508355076_1_alg».proof.Proof.Gen.KernelIdeal.Skeleton
import proofs.«159933_j25168508355076_1_alg».proof.Proof.LibStackDots
import proofs.«159933_j25168508355076_1_alg».proof.Proof.LibMatrixReads
import proofs.«159933_j25168508355076_1_alg».proof.Proof.LibRowSums
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.ValueIdx

/-- The head body's stored value at row `p`, column `q` of its block: the row of `x` against row `q` of the weights,
    plus the bias at `q`. -/
theorem head_pay (x0 : FVec Ideal S512x1024 .f32) (x1 : FVec Ideal S2002x1024 .bf16) (x2 : FVec Ideal S1x2002 .f32)
    (p : Fin 512) (q : Fin 2002) :
    (k0_pay1 (F := Ideal) x0 x1 x2) (ix2 p q)
      = (∑ t : Fin 1024, x0 (ix2 p t) * x1 (ix2 q t)) + x2 (ix2 (0 : Fin 1) q) := by
  unfold k0_pay1
  show FloatOps.matmul dot_S512x1024_S2002x1024_S512x2002_1_1_0_0_n_n none (truncf .bf16 x0 bitsLt_bf16_f32)
        (shapeCast S2002x1024 x1 shapeCasts_S2002x1024_S2002x1024) (constant S512x2002 .f32 0x00000000#32) (ix2 p q)
      + broadcastTo S512x2002 (shapeCast S1x2002 x2 shapeCasts_S1x2002_S1x2002) broadcasts_S1x2002_S512x2002 (ix2 p q) = _
  rw [shapeCast_self, shapeCast_self, MatrixReads.rowBroadcast_apply]
  refine congrArg (· + x2 (ix2 (0 : Fin 1) q)) ?_
  exact StackDots.matmul_nt_zero_apply dot_S512x1024_S2002x1024_S512x2002_1_1_0_0_n_n_wf none
    (truncf .bf16 x0 bitsLt_bf16_f32) x1 p q

/-- The first tail body's stored value at row `p`, column `q` of its block: the hidden row `Σₜ x[p, t] · w₁[h, t]`
    against row `q` of the second weights, times the row's gate. -/
theorem tail0_pay (x0 : FVec Ideal S128x1024 .f32) (x1 : FVec Ideal S1024x1024 .bf16) (x2 : FVec Ideal S8000x1024 .bf16)
    (x3 : FVec Ideal S128x1 .f32) (p : Fin 128) (q : Fin 8000) :
    (k1_pay1 (F := Ideal) x0 x1 x2 x3) (ix2 p q)
      = (∑ h : Fin 1024, (∑ t : Fin 1024, x0 (ix2 p t) * x1 (ix2 h t)) * x2 (ix2 q h)) * x3 (ix2 p (0 : Fin 1)) := by
  unfold k1_pay1
  show FloatOps.matmul dot_S128x1024_S8000x1024_S128x8000_1_1_0_0_n_n none
        (truncf .bf16 (FloatOps.matmul dot_S128x1024_S1024x1024_S128x1024_1_1_0_0_n_n none (truncf .bf16 x0 bitsLt_bf16_f32)
          (shapeCast S1024x1024 x1 shapeCasts_S1024x1024_S1024x1024) (constant S128x1024 .f32 0x00000000#32)) bitsLt_bf16_f32)
        (shapeCast S8000x1024 x2 shapeCasts_S8000x1024_S8000x1024) (constant S128x8000 .f32 0x00000000#32) (ix2 p q)
      * broadcastTo S128x8000 (shapeCast S128x1 x3 shapeCasts_S128x1_S128x1) broadcasts_S128x1_S128x8000 (ix2 p q) = _
  rw [shapeCast_self, shapeCast_self, shapeCast_self, RowSums.broadcastTo_a1_ac_apply]
  refine congrArg (· * x3 (ix2 p (0 : Fin 1))) ?_
  refine (StackDots.matmul_nt_zero_apply dot_S128x1024_S8000x1024_S128x8000_1_1_0_0_n_n_wf none _ x2 p q).trans ?_
  refine Finset.sum_congr rfl fun h _ => congrArg (· * x2 (ix2 q h)) ?_
  exact StackDots.matmul_nt_zero_apply dot_S128x1024_S1024x1024_S128x1024_1_1_0_0_n_n_wf none
    (truncf .bf16 x0 bitsLt_bf16_f32) x1 p h

/-- The second tail body's stored value at row `p`, column `q` of its block: the same two products and the row's
    gate, at this cluster's sizes. -/
theorem tail1_pay (x0 : FVec Ideal S64x1024 .f32) (x1 : FVec Ideal S256x1024 .bf16) (x2 : FVec Ideal S20000x256 .bf16)
    (x3 : FVec Ideal S64x1 .f32) (p : Fin 64) (q : Fin 20000) :
    (k2_pay1 (F := Ideal) x0 x1 x2 x3) (ix2 p q)
      = (∑ h : Fin 256, (∑ t : Fin 1024, x0 (ix2 p t) * x1 (ix2 h t)) * x2 (ix2 q h)) * x3 (ix2 p (0 : Fin 1)) := by
  unfold k2_pay1
  show FloatOps.matmul dot_S64x256_S20000x256_S64x20000_1_1_0_0_n_n none
        (truncf .bf16 (FloatOps.matmul dot_S64x1024_S256x1024_S64x256_1_1_0_0_n_n none (truncf .bf16 x0 bitsLt_bf16_f32)
          (shapeCast S256x1024 x1 shapeCasts_S256x1024_S256x1024) (constant S64x256 .f32 0x00000000#32)) bitsLt_bf16_f32)
        (shapeCast S20000x256 x2 shapeCasts_S20000x256_S20000x256) (constant S64x20000 .f32 0x00000000#32) (ix2 p q)
      * broadcastTo S64x20000 (shapeCast S64x1 x3 shapeCasts_S64x1_S64x1) broadcasts_S64x1_S64x20000 (ix2 p q) = _
  rw [shapeCast_self, shapeCast_self, shapeCast_self, RowSums.broadcastTo_a1_ac_apply]
  refine congrArg (· * x3 (ix2 p (0 : Fin 1))) ?_
  refine (StackDots.matmul_nt_zero_apply dot_S64x256_S20000x256_S64x20000_1_1_0_0_n_n_wf none _ x2 p q).trans ?_
  refine Finset.sum_congr rfl fun h _ => congrArg (· * x2 (ix2 q h)) ?_
  exact StackDots.matmul_nt_zero_apply dot_S64x1024_S256x1024_S64x256_1_1_0_0_n_n_wf none
    (truncf .bf16 x0 bitsLt_bf16_f32) x1 p h

end Cert.KernelIdeal.Blocks

end
-- ==== Proof.KernelArrays0.lean ====
/-
  The head region: the array its grid leaves, as one function of the arrays it reads.

  The grid has 16 points; point `t` reads rows `512·t … 512·t + 511` of `x`, the whole weight matrix and the whole
  bias row, and writes rows `512·t … 512·t + 511` of the result. So what point `t` writes back is block `t` of
  ONE whole-array function — entry `(r, q)` is `Σₖ x[r, k] · w[q, k] + b[0, q]` — and the 16 row blocks tile the
  result, which therefore ends holding that function. Stated at any contents `V` of the buffers at the region's
  entry.
-/
import proofs.«159933_j25168508355076_1_alg».proof.Proof.Gen.KernelIdeal.Frame
import proofs.«159933_j25168508355076_1_alg».proof.Proof.KernelBlocks

set_option maxRecDepth 16384

noncomputable section

open scoped BigOperators

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The head region's result as a function of the three arrays it reads: `Σₖ x[r, k] · w[q, k] + b[0, q]`. -/
def headOf (x : FVec Ideal S8192x1024 .f32) (w : FVec Ideal S2002x1024 .bf16) (b : FVec Ideal S1x2002 .f32) :
    FVec Ideal S8192x2002 .f32 :=
  fun i => (∑ k : Fin 1024, x (ix2 (i 0) k) * w (ix2 (i 1) k)) + b (ix2 (0 : Fin 1) (i 1))

/-- The arrays the head region reads, as it finds them. -/
abbrev xarr0 (c : Dev nD) : FVec Ideal S8192x1024 .f32 := V c main_arg0
abbrev warr0 (c : Dev nD) : FVec Ideal S2002x1024 .bf16 := V c main_v14
abbrev barr0 (c : Dev nD) : FVec Ideal S1x2002 .f32 := V c main_v19
/-- Their blocks at a point. -/
abbrev xblk0 (c : Dev nD) (t : Fin cfg0.N) : FVec Ideal S512x1024 .f32 := iblk0 V c 0 t
abbrev wblk0 (c : Dev nD) (t : Fin cfg0.N) : FVec Ideal S2002x1024 .bf16 := iblk0 V c 1 t
abbrev bblk0 (c : Dev nD) (t : Fin cfg0.N) : FVec Ideal S1x2002 .f32 := iblk0 V c 2 t

/-- The index maps over the grid: the row blocks of `x` and of the result move with the point, the weights and the
    bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block of `x` is row `512·t + p` of `x`. -/
theorem xblk0_apply (c : Dev nD) (t : Fin cfg0.N) (p : Fin 512) (k : Fin 1024) (r : Fin 8192) (hr : r.val = t.val * 512 + p.val) :
    xblk0 V c t (ix2 p k) = xarr0 V c (ix2 r k) := by
  obtain ⟨e0, e1, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- Every point's block of the weights is the whole matrix. -/
theorem wblk0_apply (c : Dev nD) (t : Fin cfg0.N) (q : Fin 2002) (k : Fin 1024) :
    wblk0 V c t (ix2 q k) = warr0 V c (ix2 q k) := by
  obtain ⟨-, -, e0, e1, -⟩ := idx_facts0 t
  show V c main_v14 (((cfg0.win 1).blk t).view.emb (ix2 q k)) = V c main_v14 (ix2 q k)
  refine congrArg (V c main_v14) (funext fun a => Fin.ext ?_)
  match a with
  | ⟨0, _⟩ => show win0_1.index t (0 : Fin 2) * 2002 + 1 * q.val = q.val; omega
  | ⟨1, _⟩ => show win0_1.index t (1 : Fin 2) * 1024 + 1 * k.val = k.val; omega

/-- Every point's block of the bias is the whole row. -/
theorem bblk0_apply (c : Dev nD) (t : Fin cfg0.N) (q : Fin 2002) :
    bblk0 V c t (ix2 (0 : Fin 1) q) = barr0 V c (ix2 (0 : Fin 1) q) := by
  obtain ⟨-, -, -, -, e0, e1, -⟩ := idx_facts0 t
  show V c main_v19 (((cfg0.win 2).blk t).view.emb (ix2 (0 : Fin 1) q)) = V c main_v19 (ix2 (0 : Fin 1) q)
  refine congrArg (V c main_v19) (funext fun a => Fin.ext ?_)
  match a with
  | ⟨0, _⟩ => show win0_2.index t (0 : Fin 2) * 1 + 1 * 0 = 0; omega
  | ⟨1, _⟩ => show win0_2.index t (1 : Fin 2) * 2002 + 1 * q.val = q.val; omega

/-- What point `t` writes back is block `t` of the one whole-array function. -/
theorem flushed0_eq (c : Dev nD) (t : Fin cfg0.N) :
    (dat0 V c).flushed 3 t = ((cfg0.win 3).blk t).view.read (Elt Ideal) (headOf (xarr0 V c) (warr0 V c) (barr0 V c)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S2002x1024) hz2, View.ld_unit_zero (S := S1x2002) hz2]
  funext j
  obtain ⟨p, q, rfl⟩ : ∃ (p : Fin 512) (q : Fin 2002), j = ix2 p q := ⟨j 0, j 1, eq_ix2 j⟩
  obtain ⟨-, -, -, -, -, -, e0, e1⟩ := idx_facts0 t
  have ht : t.val < 16 := Nat.lt_of_lt_of_eq t.isLt N_0
  have hemb : ((cfg0.win 3).blk t).view.emb (ix2 p q) = ix2 (⟨t.val * 512 + p.val, by omega⟩ : Fin 8192) q := by
    funext a; apply Fin.ext
    match a with
    | ⟨0, _⟩ => show win0_3.index t (0 : Fin 2) * 512 + 1 * p.val = t.val * 512 + p.val; omega
    | ⟨1, _⟩ => show win0_3.index t (1 : Fin 2) * 2002 + 1 * q.val = q.val; omega
  show k0_pay1 (F := Ideal) (xblk0 V c t) (wblk0 V c t) (bblk0 V c t) (ix2 p q)
      = headOf (xarr0 V c) (warr0 V c) (barr0 V c) (((cfg0.win 3).blk t).view.emb (ix2 p q))
  rw [hemb]
  refine (Blocks.head_pay (xblk0 V c t) (wblk0 V c t) (bblk0 V c t) p q).trans ?_
  show _ = (∑ k : Fin 1024, xarr0 V c (ix2 (⟨t.val * 512 + p.val, by omega⟩ : Fin 8192) k) * warr0 V c (ix2 q k)) + barr0 V c (ix2 (0 : Fin 1) q)
  rw [bblk0_apply V c t q]
  refine congrArg (· + barr0 V c (ix2 (0 : Fin 1) q)) (Finset.sum_congr rfl fun k _ => ?_)
  rw [xblk0_apply V c t p k ⟨t.val * 512 + p.val, by omega⟩ rfl, wblk0_apply V c t q k]

/-- An index of the result is in point `t`'s block iff each coordinate is in the block's range on its axis. -/
theorem mem_blk0 (t : Fin cfg0.N) (i : S8192x2002.Idx) :
    i ∈ ((cfg0.win 3).blk t).view.set ↔ ∀ a : Fin 2, win0_3.index t a * S512x2002.size a ≤ (i a).val ∧ (i a).val < win0_3.index t a * S512x2002.size a + S512x2002.size a := by
  show i ∈ ((View.whole main_v20).slice (win0_3.rect t)).set ↔ _
  rw [View.set_slice_whole, Rect.mem_set_unit]
  exact Iff.rfl

/-- The row blocks tile the result: row `r` lies in the block of point `r / 512`. -/
theorem cover0 (i : S8192x2002.Idx) : ∃ t : Fin cfg0.N, (cfg0.win 3).flush t = true ∧ i ∈ ((cfg0.win 3).blk t).view.set := by
  have hi0 : (i 0).val < 8192 := (i 0).isLt
  have hi1 : (i 1).val < 2002 := (i 1).isLt
  have hN : (i 0).val / 512 < cfg0.N := Nat.lt_of_lt_of_eq (show (i 0).val / 512 < 16 by omega) N_0.symm
  refine ⟨⟨(i 0).val / 512, hN⟩, flush0_3 _, ?_⟩
  obtain ⟨-, -, -, -, -, -, e0, e1⟩ := idx_facts0 ⟨(i 0).val / 512, hN⟩
  rw [mem_blk0]
  intro a
  match a with
  | ⟨0, _⟩ =>
    show win0_3.index ⟨(i 0).val / 512, hN⟩ (0 : Fin 2) * 512 ≤ (i 0).val ∧ (i 0).val < win0_3.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, hN⟩ (1 : Fin 2) * 2002 ≤ (i 1).val ∧ (i 1).val < win0_3.index ⟨(i 0).val / 512, hN⟩ (1 : Fin 2) * 2002 + 2002
    rw [e1]; omega

/-- The result array after the head region's grid. -/
theorem final0 (c : Dev nD) : (dat0 V c).arrAt 3 cfg0.N = headOf (xarr0 V c) (warr0 V c) (barr0 V c) :=
  (dat0 V c).arrAt_eq_of_cover 3 (headOf (xarr0 V c) (warr0 V c) (barr0 V c)) (fun t _ => flushed0_eq V c t) cover0

end Cert.KernelIdeal.Arrays

end
-- ==== Proof.KernelArrays1.lean ====
/-
  The first tail region: the array its grid leaves, as one function of the arrays it reads.

  The grid has 64 points; point `t` reads rows `128·t … 128·t + 127` of `x` and of the gate column, the two whole
  weight matrices, and writes rows `128·t … 128·t + 127` of the result. What point `t` writes back is block `t` of
  ONE whole-array function — entry `(r, q)` is `(Σₕ (Σₖ x[r, k] · w₁[h, k]) · w₂[q, h]) · g[r, 0]` — and the 64 row
  blocks tile the result, which therefore ends holding that function. Stated at any contents `V` of the buffers at
  the region's entry.
-/
import proofs.«159933_j25168508355076_1_alg».proof.Proof.Gen.KernelIdeal.Frame
import proofs.«159933_j25168508355076_1_alg».proof.Proof.KernelBlocks

set_option maxRecDepth 16384

noncomputable section

open scoped BigOperators

namespace Cert.KernelIdeal.Arrays1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The first tail region's result as a function of the four arrays it reads:
    `(Σₕ (Σₖ x[r, k] · w₁[h, k]) · w₂[q, h]) · g[r, 0]`. -/
def tail0Of (x : FVec Ideal S8192x1024 .f32) (w₁ : FVec Ideal S1024x1024 .bf16) (w₂ : FVec Ideal S8000x1024 .bf16)
    (g : FVec Ideal S8192x1 .f32) : FVec Ideal S8192x8000 .f32 :=
  fun i => (∑ h : Fin 1024, (∑ k : Fin 1024, x (ix2 (i 0) k) * w₁ (ix2 h k)) * w₂ (ix2 (i 1) h)) * g (ix2 (i 0) (0 : Fin 1))

/-- The arrays the region reads, as it finds them. -/
abbrev xarr1 (c : Dev nD) : FVec Ideal S8192x1024 .f32 := V c main_arg0
abbrev uarr1 (c : Dev nD) : FVec Ideal S1024x1024 .bf16 := V c main_v15
abbrev warr1 (c : Dev nD) : FVec Ideal S8000x1024 .bf16 := V c main_v16
abbrev garr1 (c : Dev nD) : FVec Ideal S8192x1 .f32 := V c main_v6
/-- Their blocks at a point. -/
abbrev xblk1 (c : Dev nD) (t : Fin cfg1.N) : FVec Ideal S128x1024 .f32 := iblk1 V c 0 t
abbrev ublk1 (c : Dev nD) (t : Fin cfg1.N) : FVec Ideal S1024x1024 .bf16 := iblk1 V c 1 t
abbrev wblk1 (c : Dev nD) (t : Fin cfg1.N) : FVec Ideal S8000x1024 .bf16 := iblk1 V c 2 t
abbrev gblk1 (c : Dev nD) (t : Fin cfg1.N) : FVec Ideal S128x1 .f32 := iblk1 V c 3 t

/-- The index maps over the grid: the row blocks of `x`, of the gate column and of the result move with the point,
    the two weight matrices stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of point `t`'s block of `x` is row `128·t + p` of `x`. -/
theorem xblk1_apply (c : Dev nD) (t : Fin cfg1.N) (p : Fin 128) (k : Fin 1024) (r : Fin 8192) (hr : r.val = t.val * 128 + p.val) :
    xblk1 V c t (ix2 p k) = xarr1 V c (ix2 r k) := by
  obtain ⟨e0, e1, -⟩ := idx_facts1 t
  show V c main_arg0 (((cfg1.win 0).blk t).view.emb (ix2 p k)) = V c main_arg0 (ix2 r k)
  refine congrArg (V c main_arg0) (funext fun a => Fin.ext ?_)
  match a with
  | ⟨0, _⟩ => show win1_0.index t (0 : Fin 2) * 128 + 1 * p.val = r.val; omega
  | ⟨1, _⟩ => show win1_0.index t (1 : Fin 2) * 1024 + 1 * k.val = k.val; omega

/-- Every point's block of the first weights is the whole matrix. -/
theorem ublk1_apply (c : Dev nD) (t : Fin cfg1.N) (h : Fin 1024) (k : Fin 1024) :
    ublk1 V c t (ix2 h k) = uarr1 V c (ix2 h k) := by
  obtain ⟨-, -, e0, e1, -⟩ := idx_facts1 t
  show V c main_v15 (((cfg1.win 1).blk t).view.emb (ix2 h k)) = V c main_v15 (ix2 h k)
  refine congrArg (V c main_v15) (funext fun a => Fin.ext ?_)
  match a with
  | ⟨0, _⟩ => show win1_1.index t (0 : Fin 2) * 1024 + 1 * h.val = h.val; omega
  | ⟨1, _⟩ => show win1_1.index t (1 : Fin 2) * 1024 + 1 * k.val = k.val; omega

/-- Every point's block of the second weights is the whole matrix. -/
theorem wblk1_apply (c : Dev nD) (t : Fin cfg1.N) (q : Fin 8000) (h : Fin 1024) :
    wblk1 V c t (ix2 q h) = warr1 V c (ix2 q h) := by
  obtain ⟨-, -, -, -, e0, e1, -⟩ := idx_facts1 t
  show V c main_v16 (((cfg1.win 2).blk t).view.emb (ix2 q h)) = V c main_v16 (ix2 q h)
  refine congrArg (V c main_v16) (funext fun a => Fin.ext ?_)
  match a with
  | ⟨0, _⟩ => show win1_2.index t (0 : Fin 2) * 8000 + 1 * q.val = q.val; omega
  | ⟨1, _⟩ => show win1_2.index t (1 : Fin 2) * 1024 + 1 * h.val = h.val; omega

/-- Row `p` of point `t`'s block of the gate column is row `128·t + p` of the column. -/
theorem gblk1_apply (c : Dev nD) (t : Fin cfg1.N) (p : Fin 128) (r : Fin 8192) (hr : r.val = t.val * 128 + p.val) :
    gblk1 V c t (ix2 p (0 : Fin 1)) = garr1 V c (ix2 r (0 : Fin 1)) := by
  obtain ⟨-, -, -, -, -, -, e0, e1, -⟩ := idx_facts1 t
  show V c main_v6 (((cfg1.win 3).blk t).view.emb (ix2 p (0 : Fin 1))) = V c main_v6 (ix2 r (0 : Fin 1))
  refine congrArg (V c main_v6) (funext fun a => Fin.ext ?_)
  match a with
  | ⟨0, _⟩ => show win1_3.index t (0 : Fin 2) * 128 + 1 * p.val = r.val; omega
  | ⟨1, _⟩ => show win1_3.index t (1 : Fin 2) * 1 + 1 * 0 = 0; omega

/-- What point `t` writes back is block `t` of the one whole-array function. -/
theorem flushed1_eq (c : Dev nD) (t : Fin cfg1.N) :
    (dat1 V c).flushed 4 t
      = ((cfg1.win 4).blk t).view.read (Elt Ideal) (tail0Of (xarr1 V c) (uarr1 V c) (warr1 V c) (garr1 V c)) := by
  show (cfg1.win 4).cut (grid1.coords t) ((dat1 V c).after 4 t) = _
  rw [after1_4]
  unfold out1_4
  rw [View.canon_unit_zero hz2]
  simp only [View.ld_unit_zero (S := S128x1024) hz2, View.ld_unit_zero (S := S1024x1024) hz2,
    View.ld_unit_zero (S := S8000x1024) hz2, View.ld_unit_zero (S := S128x1) hz2]
  funext j
  obtain ⟨p, q, rfl⟩ : ∃ (p : Fin 128) (q : Fin 8000), j = ix2 p q := ⟨j 0, j 1, eq_ix2 j⟩
  obtain ⟨-, -, -, -, -, -, -, -, e0, e1⟩ := idx_facts1 t
  have ht : t.val < 64 := Nat.lt_of_lt_of_eq t.isLt N_1
  have hemb : ((cfg1.win 4).blk t).view.emb (ix2 p q) = ix2 (⟨t.val * 128 + p.val, by omega⟩ : Fin 8192) q := by
    funext a; apply Fin.ext
    match a with
    | ⟨0, _⟩ => show win1_4.index t (0 : Fin 2) * 128 + 1 * p.val = t.val * 128 + p.val; omega
    | ⟨1, _⟩ => show win1_4.index t (1 : Fin 2) * 8000 + 1 * q.val = q.val; omega
  show k1_pay1 (F := Ideal) (xblk1 V c t) (ublk1 V c t) (wblk1 V c t) (gblk1 V c t) (ix2 p q)
      = tail0Of (xarr1 V c) (uarr1 V c) (warr1 V c) (garr1 V c) (((cfg1.win 4).blk t).view.emb (ix2 p q))
  rw [hemb]
  refine (Blocks.tail0_pay (xblk1 V c t) (ublk1 V c t) (wblk1 V c t) (gblk1 V c t) p q).trans ?_
  show _ = (∑ h : Fin 1024, (∑ k : Fin 1024, xarr1 V c (ix2 (⟨t.val * 128 + p.val, by omega⟩ : Fin 8192) k) * uarr1 V c (ix2 h k))
      * warr1 V c (ix2 q h)) * garr1 V c (ix2 (⟨t.val * 128 + p.val, by omega⟩ : Fin 8192) (0 : Fin 1))
  rw [gblk1_apply V c t p ⟨t.val * 128 + p.val, by omega⟩ rfl]
  refine congrArg (· * garr1 V c (ix2 (⟨t.val * 128 + p.val, by omega⟩ : Fin 8192) (0 : Fin 1))) (Finset.sum_congr rfl fun h _ => ?_)
  rw [wblk1_apply V c t q h]
  refine congrArg (· * warr1 V c (ix2 q h)) (Finset.sum_congr rfl fun k _ => ?_)
  rw [xblk1_apply V c t p k ⟨t.val * 128 + p.val, by omega⟩ rfl, ublk1_apply V c t h k]

/-- An index of the result is in point `t`'s block iff each coordinate is in the block's range on its axis. -/
theorem mem_blk1 (t : Fin cfg1.N) (i : S8192x8000.Idx) :
    i ∈ ((cfg1.win 4).blk t).view.set ↔ ∀ a : Fin 2, win1_4.index t a * S128x8000.size a ≤ (i a).val ∧ (i a).val < win1_4.index t a * S128x8000.size a + S128x8000.size a := by
  show i ∈ ((View.whole main_v21).slice (win1_4.rect t)).set ↔ _
  rw [View.set_slice_whole, Rect.mem_set_unit]
  exact Iff.rfl

/-- The row blocks tile the result: row `r` lies in the block of point `r / 128`. -/
theorem cover1 (i : S8192x8000.Idx) : ∃ t : Fin cfg1.N, (cfg1.win 4).flush t = true ∧ i ∈ ((cfg1.win 4).blk t).view.set := by
  have hi0 : (i 0).val < 8192 := (i 0).isLt
  have hi1 : (i 1).val < 8000 := (i 1).isLt
  have hN : (i 0).val / 128 < cfg1.N := Nat.lt_of_lt_of_eq (show (i 0).val / 128 < 64 by omega) N_1.symm
  refine ⟨⟨(i 0).val / 128, hN⟩, flush1_4 _, ?_⟩
  obtain ⟨-, -, -, -, -, -, -, -, e0, e1⟩ := idx_facts1 ⟨(i 0).val / 128, hN⟩
  rw [mem_blk1]
  intro a
  match a with
  | ⟨0, _⟩ =>
    show win1_4.index ⟨(i 0).val / 128, hN⟩ (0 : Fin 2) * 128 ≤ (i 0).val ∧ (i 0).val < win1_4.index ⟨(i 0).val / 128, hN⟩ (0 : Fin 2) * 128 + 128
    rw [e0]; show (i 0).val / 128 * 128 ≤ (i 0).val ∧ (i 0).val < (i 0).val / 128 * 128 + 128; omega
  | ⟨1, _⟩ =>
    show win1_4.index ⟨(i 0).val / 128, hN⟩ (1 : Fin 2) * 8000 ≤ (i 1).val ∧ (i 1).val < win1_4.index ⟨(i 0).val / 128, hN⟩ (1 : Fin 2) * 8000 + 8000
    rw [e1]; omega

/-- The result array after the first tail region's grid. -/
theorem final1 (c : Dev nD) : (dat1 V c).arrAt 4 cfg1.N = tail0Of (xarr1 V c) (uarr1 V c) (warr1 V c) (garr1 V c) :=
  (dat1 V c).arrAt_eq_of_cover 4 (tail0Of (xarr1 V c) (uarr1 V c) (warr1 V c) (garr1 V c)) (fun t _ => flushed1_eq V c t) cover1

end Cert.KernelIdeal.Arrays1

end
-- ==== Proof.KernelArrays2.lean ====
/-
  The second tail region: the array its grid leaves, as one function of the arrays it reads.

  The grid has 128 points; point `t` reads rows `64·t … 64·t + 63` of `x` and of the gate column, the two whole
  weight matrices (the hidden layer is 256 wide here), and writes rows `64·t … 64·t + 63` of the result. What point
  `t` writes back is block `t` of ONE whole-array function — entry `(r, q)` is
  `(Σₕ (Σₖ x[r, k] · w₁[h, k]) · w₂[q, h]) · g[r, 0]` — and the 128 row blocks tile the result, which therefore ends
  holding that function. Stated at any contents `V` of the buffers at the region's entry.
-/
import proofs.«159933_j25168508355076_1_alg».proof.Proof.Gen.KernelIdeal.Frame
import proofs.«159933_j25168508355076_1_alg».proof.Proof.KernelBlocks

set_option maxRecDepth 16384

noncomputable section

open scoped BigOperators

namespace Cert.KernelIdeal.Arrays2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The second tail region's result as a function of the four arrays it reads:
    `(Σₕ (Σₖ x[r, k] · w₁[h, k]) · w₂[q, h]) · g[r, 0]`, the hidden index `h` over 256 values. -/
def tail1Of (x : FVec Ideal S8192x1024 .f32) (w₁ : FVec Ideal S256x1024 .bf16) (w₂ : FVec Ideal S20000x256 .bf16)
    (g : FVec Ideal S8192x1 .f32) : FVec Ideal S8192x20000 .f32 :=
  fun i => (∑ h : Fin 256, (∑ k : Fin 1024, x (ix2 (i 0) k) * w₁ (ix2 h k)) * w₂ (ix2 (i 1) h)) * g (ix2 (i 0) (0 : Fin 1))

/-- The arrays the region reads, as it finds them. -/
abbrev xarr2 (c : Dev nD) : FVec Ideal S8192x1024 .f32 := V c main_arg0
abbrev uarr2 (c : Dev nD) : FVec Ideal S256x1024 .bf16 := V c main_v17
abbrev warr2 (c : Dev nD) : FVec Ideal S20000x256 .bf16 := V c main_v18
abbrev garr2 (c : Dev nD) : FVec Ideal S8192x1 .f32 := V c main_v13
/-- Their blocks at a point. -/
abbrev xblk2 (c : Dev nD) (t : Fin cfg2.N) : FVec Ideal S64x1024 .f32 := iblk2 V c 0 t
abbrev ublk2 (c : Dev nD) (t : Fin cfg2.N) : FVec Ideal S256x1024 .bf16 := iblk2 V c 1 t
abbrev wblk2 (c : Dev nD) (t : Fin cfg2.N) : FVec Ideal S20000x256 .bf16 := iblk2 V c 2 t
abbrev gblk2 (c : Dev nD) (t : Fin cfg2.N) : FVec Ideal S64x1 .f32 := iblk2 V c 3 t

/-- The index maps over the grid: the row blocks of `x`, of the gate column and of the result move with the point,
    the two weight matrices stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `p` of point `t`'s block of `x` is row `64·t + p` of `x`. -/
theorem xblk2_apply (c : Dev nD) (t : Fin cfg2.N) (p : Fin 64) (k : Fin 1024) (r : Fin 8192) (hr : r.val = t.val * 64 + p.val) :
    xblk2 V c t (ix2 p k) = xarr2 V c (ix2 r k) := by
  obtain ⟨e0, e1, -⟩ := idx_facts2 t
  show V c main_arg0 (((cfg2.win 0).blk t).view.emb (ix2 p k)) = V c main_arg0 (ix2 r k)
  refine congrArg (V c main_arg0) (funext fun a => Fin.ext ?_)
  match a with
  | ⟨0, _⟩ => show win2_0.index t (0 : Fin 2) * 64 + 1 * p.val = r.val; omega
  | ⟨1, _⟩ => show win2_0.index t (1 : Fin 2) * 1024 + 1 * k.val = k.val; omega

/-- Every point's block of the first weights is the whole matrix. -/
theorem ublk2_apply (c : Dev nD) (t : Fin cfg2.N) (h : Fin 256) (k : Fin 1024) :
    ublk2 V c t (ix2 h k) = uarr2 V c (ix2 h k) := by
  obtain ⟨-, -, e0, e1, -⟩ := idx_facts2 t
  show V c main_v17 (((cfg2.win 1).blk t).view.emb (ix2 h k)) = V c main_v17 (ix2 h k)
  refine congrArg (V c main_v17) (funext fun a => Fin.ext ?_)
  match a with
  | ⟨0, _⟩ => show win2_1.index t (0 : Fin 2) * 256 + 1 * h.val = h.val; omega
  | ⟨1, _⟩ => show win2_1.index t (1 : Fin 2) * 1024 + 1 * k.val = k.val; omega

/-- Every point's block of the second weights is the whole matrix. -/
theorem wblk2_apply (c : Dev nD) (t : Fin cfg2.N) (q : Fin 20000) (h : Fin 256) :
    wblk2 V c t (ix2 q h) = warr2 V c (ix2 q h) := by
  obtain ⟨-, -, -, -, e0, e1, -⟩ := idx_facts2 t
  show V c main_v18 (((cfg2.win 2).blk t).view.emb (ix2 q h)) = V c main_v18 (ix2 q h)
  refine congrArg (V c main_v18) (funext fun a => Fin.ext ?_)
  match a with
  | ⟨0, _⟩ => show win2_2.index t (0 : Fin 2) * 20000 + 1 * q.val = q.val; omega
  | ⟨1, _⟩ => show win2_2.index t (1 : Fin 2) * 256 + 1 * h.val = h.val; omega

/-- Row `p` of point `t`'s block of the gate column is row `64·t + p` of the column. -/
theorem gblk2_apply (c : Dev nD) (t : Fin cfg2.N) (p : Fin 64) (r : Fin 8192) (hr : r.val = t.val * 64 + p.val) :
    gblk2 V c t (ix2 p (0 : Fin 1)) = garr2 V c (ix2 r (0 : Fin 1)) := by
  obtain ⟨-, -, -, -, -, -, e0, e1, -⟩ := idx_facts2 t
  show V c main_v13 (((cfg2.win 3).blk t).view.emb (ix2 p (0 : Fin 1))) = V c main_v13 (ix2 r (0 : Fin 1))
  refine congrArg (V c main_v13) (funext fun a => Fin.ext ?_)
  match a with
  | ⟨0, _⟩ => show win2_3.index t (0 : Fin 2) * 64 + 1 * p.val = r.val; omega
  | ⟨1, _⟩ => show win2_3.index t (1 : Fin 2) * 1 + 1 * 0 = 0; omega

/-- What point `t` writes back is block `t` of the one whole-array function. -/
theorem flushed2_eq (c : Dev nD) (t : Fin cfg2.N) :
    (dat2 V c).flushed 4 t
      = ((cfg2.win 4).blk t).view.read (Elt Ideal) (tail1Of (xarr2 V c) (uarr2 V c) (warr2 V c) (garr2 V c)) := by
  show (cfg2.win 4).cut (grid2.coords t) ((dat2 V c).after 4 t) = _
  rw [after2_4]
  unfold out2_4
  rw [View.canon_unit_zero hz2]
  simp only [View.ld_unit_zero (S := S64x1024) hz2, View.ld_unit_zero (S := S256x1024) hz2,
    View.ld_unit_zero (S := S20000x256) hz2, View.ld_unit_zero (S := S64x1) hz2]
  funext j
  obtain ⟨p, q, rfl⟩ : ∃ (p : Fin 64) (q : Fin 20000), j = ix2 p q := ⟨j 0, j 1, eq_ix2 j⟩
  obtain ⟨-, -, -, -, -, -, -, -, e0, e1⟩ := idx_facts2 t
  have ht : t.val < 128 := Nat.lt_of_lt_of_eq t.isLt N_2
  have hemb : ((cfg2.win 4).blk t).view.emb (ix2 p q) = ix2 (⟨t.val * 64 + p.val, by omega⟩ : Fin 8192) q := by
    funext a; apply Fin.ext
    match a with
    | ⟨0, _⟩ => show win2_4.index t (0 : Fin 2) * 64 + 1 * p.val = t.val * 64 + p.val; omega
    | ⟨1, _⟩ => show win2_4.index t (1 : Fin 2) * 20000 + 1 * q.val = q.val; omega
  show k2_pay1 (F := Ideal) (xblk2 V c t) (ublk2 V c t) (wblk2 V c t) (gblk2 V c t) (ix2 p q)
      = tail1Of (xarr2 V c) (uarr2 V c) (warr2 V c) (garr2 V c) (((cfg2.win 4).blk t).view.emb (ix2 p q))
  rw [hemb]
  refine (Blocks.tail1_pay (xblk2 V c t) (ublk2 V c t) (wblk2 V c t) (gblk2 V c t) p q).trans ?_
  show _ = (∑ h : Fin 256, (∑ k : Fin 1024, xarr2 V c (ix2 (⟨t.val * 64 + p.val, by omega⟩ : Fin 8192) k) * uarr2 V c (ix2 h k))
      * warr2 V c (ix2 q h)) * garr2 V c (ix2 (⟨t.val * 64 + p.val, by omega⟩ : Fin 8192) (0 : Fin 1))
  rw [gblk2_apply V c t p ⟨t.val * 64 + p.val, by omega⟩ rfl]
  refine congrArg (· * garr2 V c (ix2 (⟨t.val * 64 + p.val, by omega⟩ : Fin 8192) (0 : Fin 1))) (Finset.sum_congr rfl fun h _ => ?_)
  rw [wblk2_apply V c t q h]
  refine congrArg (· * warr2 V c (ix2 q h)) (Finset.sum_congr rfl fun k _ => ?_)
  rw [xblk2_apply V c t p k ⟨t.val * 64 + p.val, by omega⟩ rfl, ublk2_apply V c t h k]

/-- An index of the result is in point `t`'s block iff each coordinate is in the block's range on its axis. -/
theorem mem_blk2 (t : Fin cfg2.N) (i : S8192x20000.Idx) :
    i ∈ ((cfg2.win 4).blk t).view.set ↔ ∀ a : Fin 2, win2_4.index t a * S64x20000.size a ≤ (i a).val ∧ (i a).val < win2_4.index t a * S64x20000.size a + S64x20000.size a := by
  show i ∈ ((View.whole main_v22).slice (win2_4.rect t)).set ↔ _
  rw [View.set_slice_whole, Rect.mem_set_unit]
  exact Iff.rfl

/-- The row blocks tile the result: row `r` lies in the block of point `r / 64`. -/
theorem cover2 (i : S8192x20000.Idx) : ∃ t : Fin cfg2.N, (cfg2.win 4).flush t = true ∧ i ∈ ((cfg2.win 4).blk t).view.set := by
  have hi0 : (i 0).val < 8192 := (i 0).isLt
  have hi1 : (i 1).val < 20000 := (i 1).isLt
  have hN : (i 0).val / 64 < cfg2.N := Nat.lt_of_lt_of_eq (show (i 0).val / 64 < 128 by omega) N_2.symm
  refine ⟨⟨(i 0).val / 64, hN⟩, flush2_4 _, ?_⟩
  obtain ⟨-, -, -, -, -, -, -, -, e0, e1⟩ := idx_facts2 ⟨(i 0).val / 64, hN⟩
  rw [mem_blk2]
  intro a
  match a with
  | ⟨0, _⟩ =>
    show win2_4.index ⟨(i 0).val / 64, hN⟩ (0 : Fin 2) * 64 ≤ (i 0).val ∧ (i 0).val < win2_4.index ⟨(i 0).val / 64, hN⟩ (0 : Fin 2) * 64 + 64
    rw [e0]; show (i 0).val / 64 * 64 ≤ (i 0).val ∧ (i 0).val < (i 0).val / 64 * 64 + 64; omega
  | ⟨1, _⟩ =>
    show win2_4.index ⟨(i 0).val / 64, hN⟩ (1 : Fin 2) * 20000 ≤ (i 1).val ∧ (i 1).val < win2_4.index ⟨(i 0).val / 64, hN⟩ (1 : Fin 2) * 20000 + 20000
    rw [e1]; omega

/-- The result array after the second tail region's grid. -/
theorem final2 (c : Dev nD) : (dat2 V c).arrAt 4 cfg2.N = tail1Of (xarr2 V c) (uarr2 V c) (warr2 V c) (garr2 V c) :=
  (dat2 V c).arrAt_eq_of_cover 4 (tail1Of (xarr2 V c) (uarr2 V c) (warr2 V c) (garr2 V c)) (fun t _ => flushed2_eq V c t) cover2

end Cert.KernelIdeal.Arrays2

end
-- ==== Proof.Spec.lean ====
/-
  The three results of the adaptive-softmax forward pass, as functions of the argument arrays, entry by entry,
  on the extended reals.

  The head logits are an affine layer: entry `(p, q)` is `Σₜ x[p, t] · w[q, t] + b[q]`. Each tail cluster is two linear
  layers, the rows then gated by the cluster's membership: entry `(p, q)` is
  `(Σₕ (Σₜ x[p, t] · w₁[h, t]) · w₂[q, h]) · g[p]`, where `g[p]` is `1` when row `p`'s target lies in the cluster's
  range `lo ≤ target[p] < hi` (signed) and `0` otherwise. The gate is kept as the composite of the integer
  comparisons and the conversion to a float: both programs compute it by the same operations, so nothing here
  ever looks inside it.
-/
import Idealize.ShloMosaic.PureOps.Ideal
import Idealize.ShloMosaic.Lib.ValueIdx

noncomputable section

open scoped BigOperators

namespace Cert.Spec

open Idealize.ShloMosaic Idealize.ShloMosaic.ValueIdx

/-- Rows through an affine layer: entry `(p, q)` is `Σₜ x[p, t] · w[q, t] + b[q]`. -/
def affine {M K N : Nat} (x : FVec Ideal ⟨2, ![M, K]⟩ .f32) (w : FVec Ideal ⟨2, ![N, K]⟩ .f32) (b : FVec Ideal ⟨1, ![N]⟩ .f32) :
    FVec Ideal ⟨2, ![M, N]⟩ .f32 :=
  fun i => (∑ t : Fin K, x (ix2 (i 0) t) * w (ix2 (i 1) t)) + b (ix1 (i 1))

/-- Rows through two linear layers, then gated row by row: entry `(p, q)` is
    `(Σₕ (Σₜ x[p, t] · w₁[h, t]) · w₂[q, h]) · g[p]`. -/
def gated {M K H N : Nat} (x : FVec Ideal ⟨2, ![M, K]⟩ .f32) (w₁ : FVec Ideal ⟨2, ![H, K]⟩ .f32) (w₂ : FVec Ideal ⟨2, ![N, H]⟩ .f32)
    (g : FVec Ideal ⟨1, ![M]⟩ .f32) : FVec Ideal ⟨2, ![M, N]⟩ .f32 :=
  fun i => (∑ h : Fin H, (∑ t : Fin K, x (ix2 (i 0) t) * w₁ (ix2 h t)) * w₂ (ix2 (i 1) h)) * g (ix1 (i 0))

/-- A cluster's row gate: row `p` carries the float of the bit `lo ≤ target[p] ∧ target[p] < hi`, both comparisons
    signed. -/
def rowGate {n : Nat} (lo hi : BitVec 32) (hb : (⟨0, ![]⟩ : Shape).BroadcastsInDim ⟨1, ![n]⟩ ![])
    (tgt : (⟨⟨1, ![n]⟩, .i32⟩ : BufTy).Contents (Elt Ideal)) : FVec Ideal ⟨1, ![n]⟩ .f32 :=
  uitofp (F := Ideal) .f32 (andi (cmpi .sge tgt (broadcastInDim ⟨1, ![n]⟩ ![] hb (constantI ⟨0, ![]⟩ 32 lo)))
    (cmpi .slt tgt (broadcastInDim ⟨1, ![n]⟩ ![] hb (constantI ⟨0, ![]⟩ 32 hi))))

theorem affine_apply {M K N : Nat} (x : FVec Ideal ⟨2, ![M, K]⟩ .f32) (w : FVec Ideal ⟨2, ![N, K]⟩ .f32) (b : FVec Ideal ⟨1, ![N]⟩ .f32)
    (p : Fin M) (q : Fin N) : affine x w b (ix2 p q) = (∑ t : Fin K, x (ix2 p t) * w (ix2 q t)) + b (ix1 q) := rfl

theorem gated_apply {M K H N : Nat} (x : FVec Ideal ⟨2, ![M, K]⟩ .f32) (w₁ : FVec Ideal ⟨2, ![H, K]⟩ .f32) (w₂ : FVec Ideal ⟨2, ![N, H]⟩ .f32)
    (g : FVec Ideal ⟨1, ![M]⟩ .f32) (p : Fin M) (q : Fin N) :
    gated x w₁ w₂ g (ix2 p q) = (∑ h : Fin H, (∑ t : Fin K, x (ix2 p t) * w₁ (ix2 h t)) * w₂ (ix2 q h)) * g (ix1 p) := rfl

end Cert.Spec

end
-- ==== Proof.KernelValue.lean ====
/-
  The kernel program's three results are the specification's functions of the arguments.

  Each result array is written by one region and by nothing after it, so at the end of the run it holds what that
  region's grid left: the region's whole-array function of the arrays the region read. Those arrays are the argument
  `x`, untouched by anything before; the weights after the host's change of float format, which is the identity on
  the extended reals; the bias laid out as one row; and a cluster's row gate laid out as one column. Reading the row
  and the column back at an index turns each region's function into the specification's.
-/
import proofs.«159933_j25168508355076_1_alg».proof.Proof.KernelRun
import proofs.«159933_j25168508355076_1_alg».proof.Proof.KernelArrays0
import proofs.«159933_j25168508355076_1_alg».proof.Proof.KernelArrays1
import proofs.«159933_j25168508355076_1_alg».proof.Proof.KernelArrays2
import proofs.«159933_j25168508355076_1_alg».proof.Proof.Spec
import proofs.«159933_j25168508355076_1_alg».proof.Proof.LibMatrixReads
import proofs.«159933_j25168508355076_1_alg».proof.Proof.LibRowSums
import Idealize.ShloMosaic.Lib.StableHlo.Run
import Idealize.ShloMosaic.PureOps.Ideal

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-! ## Each region's function, on the arrays the host stretch prepared, is the specification's -/

/-- The head region's function on the reformatted weights and the bias laid as a row. -/
theorem headOf_eq (x : FVec Ideal S8192x1024 .f32) (w : FVec Ideal S2002x1024 .f32) (b : FVec Ideal S2002 .f32) :
    Arrays.headOf x (truncf .bf16 w bitsLt_bf16_f32) (shapeCast S1x2002 b shapeCasts_S2002_S1x2002)
      = Cert.Spec.affine (M := 8192) (K := 1024) (N := 2002) x w b := by
  funext i
  obtain ⟨p, q, rfl⟩ : ∃ (p : Fin 8192) (q : Fin 2002), i = ix2 p q := ⟨i 0, i 1, eq_ix2 i⟩
  show (∑ k : Fin 1024, x (ix2 p k) * w (ix2 q k)) + shapeCast S1x2002 b shapeCasts_S2002_S1x2002 (ix2 (0 : Fin 1) q) = _
  rw [MatrixReads.rowOfVec_apply]
  rfl

/-- The first tail region's function on the reformatted weights and the gate laid as a column. -/
theorem tail0Of_eq (x : FVec Ideal S8192x1024 .f32) (w₁ : FVec Ideal S1024x1024 .f32) (w₂ : FVec Ideal S8000x1024 .f32)
    (g : FVec Ideal S8192 .f32) :
    Arrays1.tail0Of x (truncf .bf16 w₁ bitsLt_bf16_f32) (truncf .bf16 w₂ bitsLt_bf16_f32) (shapeCast S8192x1 g shapeCasts_S8192_S8192x1)
      = Cert.Spec.gated (M := 8192) (K := 1024) (H := 1024) (N := 8000) x w₁ w₂ g := by
  funext i
  obtain ⟨p, q, rfl⟩ : ∃ (p : Fin 8192) (q : Fin 8000), i = ix2 p q := ⟨i 0, i 1, eq_ix2 i⟩
  show (∑ h : Fin 1024, (∑ k : Fin 1024, x (ix2 p k) * w₁ (ix2 h k)) * w₂ (ix2 q h))
      * shapeCast S8192x1 g shapeCasts_S8192_S8192x1 (ix2 p (0 : Fin 1)) = _
  rw [RowSums.shapeCast_a_a1_apply]
  rfl

/-- The second tail region's function on the reformatted weights and the gate laid as a column. -/
theorem tail1Of_eq (x : FVec Ideal S8192x1024 .f32) (w₁ : FVec Ideal S256x1024 .f32) (w₂ : FVec Ideal S20000x256 .f32)
    (g : FVec Ideal S8192 .f32) :
    Arrays2.tail1Of x (truncf .bf16 w₁ bitsLt_bf16_f32) (truncf .bf16 w₂ bitsLt_bf16_f32) (shapeCast S8192x1 g shapeCasts_S8192_S8192x1)
      = Cert.Spec.gated (M := 8192) (K := 1024) (H := 256) (N := 20000) x w₁ w₂ g := by
  funext i
  obtain ⟨p, q, rfl⟩ : ∃ (p : Fin 8192) (q : Fin 20000), i = ix2 p q := ⟨i 0, i 1, eq_ix2 i⟩
  show (∑ h : Fin 256, (∑ k : Fin 1024, x (ix2 p k) * w₁ (ix2 h k)) * w₂ (ix2 q h))
      * shapeCast S8192x1 g shapeCasts_S8192_S8192x1 (ix2 p (0 : Fin 1)) = _
  rw [RowSums.shapeCast_a_a1_apply]
  rfl

variable (m : (ℓ : Loc nD τ sig) → Buf (Elt Ideal) ℓ) (ρ : Dev nD → PrngReg)

/-! ## What the host stretch leaves in the arrays the regions read -/

theorem W1_arg0 (c : Dev nD) : (W1 m ρ c (Proc.devRef .tc main_arg0) : FVec Ideal S8192x1024 .f32) = (m ((c : Thread nD τ).loc main_arg0)) := by
  show StableHlo.after hostOps0 (W0 m ρ c) (Proc.devRef .tc main_arg0) = _
  dsimp only [hostOps0]
  after_results <;> rfl

theorem W1_v14 (c : Dev nD) : @Eq (FVec Ideal S2002x1024 .bf16) (W1 m ρ c (Proc.devRef .tc main_v14))
    (truncf .bf16 ((m ((c : Thread nD τ).loc main_arg2)) : FVec Ideal S2002x1024 .f32) bitsLt_bf16_f32) := by
  show StableHlo.after hostOps0 (W0 m ρ c) (Proc.devRef .tc main_v14) = _
  dsimp only [hostOps0]
  after_results <;> rfl

theorem W1_v19 (c : Dev nD) : (W1 m ρ c (Proc.devRef .tc main_v19) : FVec Ideal S1x2002 .f32)
    = shapeCast S1x2002 ((m ((c : Thread nD τ).loc main_arg3)) : FVec Ideal S2002 .f32) shapeCasts_S2002_S1x2002 := by
  show StableHlo.after hostOps0 (W0 m ρ c) (Proc.devRef .tc main_v19) = _
  dsimp only [hostOps0]
  after_results <;> rfl

theorem W1_v15 (c : Dev nD) : @Eq (FVec Ideal S1024x1024 .bf16) (W1 m ρ c (Proc.devRef .tc main_v15))
    (truncf .bf16 ((m ((c : Thread nD τ).loc main_arg4)) : FVec Ideal S1024x1024 .f32) bitsLt_bf16_f32) := by
  show StableHlo.after hostOps0 (W0 m ρ c) (Proc.devRef .tc main_v15) = _
  dsimp only [hostOps0]
  after_results <;> rfl

theorem W1_v16 (c : Dev nD) : @Eq (FVec Ideal S8000x1024 .bf16) (W1 m ρ c (Proc.devRef .tc main_v16))
    (truncf .bf16 ((m ((c : Thread nD τ).loc main_arg5)) : FVec Ideal S8000x1024 .f32) bitsLt_bf16_f32) := by
  show StableHlo.after hostOps0 (W0 m ρ c) (Proc.devRef .tc main_v16) = _
  dsimp only [hostOps0]
  after_results <;> rfl

theorem W1_v17 (c : Dev nD) : @Eq (FVec Ideal S256x1024 .bf16) (W1 m ρ c (Proc.devRef .tc main_v17))
    (truncf .bf16 ((m ((c : Thread nD τ).loc main_arg6)) : FVec Ideal S256x1024 .f32) bitsLt_bf16_f32) := by
  show StableHlo.after hostOps0 (W0 m ρ c) (Proc.devRef .tc main_v17) = _
  dsimp only [hostOps0]
  after_results <;> rfl

theorem W1_v18 (c : Dev nD) : @Eq (FVec Ideal S20000x256 .bf16) (W1 m ρ c (Proc.devRef .tc main_v18))
    (truncf .bf16 ((m ((c : Thread nD τ).loc main_arg7)) : FVec Ideal S20000x256 .f32) bitsLt_bf16_f32) := by
  show StableHlo.after hostOps0 (W0 m ρ c) (Proc.devRef .tc main_v18) = _
  dsimp only [hostOps0]
  after_results <;> rfl

theorem W1_v6 (c : Dev nD) : (W1 m ρ c (Proc.devRef .tc main_v6) : FVec Ideal S8192x1 .f32)
    = shapeCast S8192x1 (Cert.Spec.rowGate (n := 8192) 2000#32 10000#32 bcast_S_S8192 (m ((c : Thread nD τ).loc main_arg1))) shapeCasts_S8192_S8192x1 := by
  show StableHlo.after hostOps0 (W0 m ρ c) (Proc.devRef .tc main_v6) = _
  dsimp only [hostOps0]
  after_results <;> rfl

theorem W1_v13 (c : Dev nD) : (W1 m ρ c (Proc.devRef .tc main_v13) : FVec Ideal S8192x1 .f32)
    = shapeCast S8192x1 (Cert.Spec.rowGate (n := 8192) 10000#32 30000#32 bcast_S_S8192 (m ((c : Thread nD τ).loc main_arg1))) shapeCasts_S8192_S8192x1 := by
  show StableHlo.after hostOps0 (W0 m ρ c) (Proc.devRef .tc main_v13) = _
  dsimp only [hostOps0]
  after_results <;> rfl

/-! ## The argument `x` at the later regions' entries: a region reads it and leaves it -/

theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

theorem W3_arg0 (c : Dev nD) : W3 m ρ c (Proc.devRef .tc main_arg0) = W2 m ρ c (Proc.devRef .tc main_arg0) :=
  (W3_arr m ρ c 0).trans (((dat1 (V2 m ρ) c).arrAt_in 0 rfl _).trans (A_eq1 (V2 m ρ) c 0))

/-! ## The three results -/

/-- The head logits at the end of the run. -/
theorem res20 (c : Dev nD) : (W4 m ρ c (Proc.devRef .tc main_v20) : FVec Ideal S8192x2002 .f32)
    = Cert.Spec.affine (M := 8192) (K := 1024) (N := 2002) (m ((c : Thread nD τ).loc main_arg0)) (m ((c : Thread nD τ).loc main_arg2)) (m ((c : Thread nD τ).loc main_arg3)) := by
  refine (W4_of_ne m ρ c main_v20 (by decide)).trans ((W3_of_ne m ρ c main_v20 (by decide)).trans
    ((W2_arr m ρ c 3).trans ((Arrays.final0 (V1 m ρ) c).trans ?_)))
  have e0 : Arrays.xarr0 (V1 m ρ) c = (m ((c : Thread nD τ).loc main_arg0)) := W1_arg0 m ρ c
  have e1 : Arrays.warr0 (V1 m ρ) c = truncf .bf16 ((m ((c : Thread nD τ).loc main_arg2)) : FVec Ideal S2002x1024 .f32) bitsLt_bf16_f32 := W1_v14 m ρ c
  have e2 : Arrays.barr0 (V1 m ρ) c = shapeCast S1x2002 ((m ((c : Thread nD τ).loc main_arg3)) : FVec Ideal S2002 .f32) shapeCasts_S2002_S1x2002 := W1_v19 m ρ c
  exact (congr (congr (congrArg Arrays.headOf e0) e1) e2).trans (headOf_eq _ _ _)

/-- The first tail's result at the end of the run. -/
theorem res21 (c : Dev nD) : (W4 m ρ c (Proc.devRef .tc main_v21) : FVec Ideal S8192x8000 .f32)
    = Cert.Spec.gated (M := 8192) (K := 1024) (H := 1024) (N := 8000) (m ((c : Thread nD τ).loc main_arg0)) (m ((c : Thread nD τ).loc main_arg4)) (m ((c : Thread nD τ).loc main_arg5))
        (Cert.Spec.rowGate (n := 8192) 2000#32 10000#32 bcast_S_S8192 (m ((c : Thread nD τ).loc main_arg1))) := by
  refine (W4_of_ne m ρ c main_v21 (by decide)).trans ((W3_arr m ρ c 4).trans ((Arrays1.final1 (V2 m ρ) c).trans ?_))
  have e0 : Arrays1.xarr1 (V2 m ρ) c = (m ((c : Thread nD τ).loc main_arg0)) := (W2_arg0 m ρ c).trans (W1_arg0 m ρ c)
  have e1 : Arrays1.uarr1 (V2 m ρ) c = truncf .bf16 ((m ((c : Thread nD τ).loc main_arg4)) : FVec Ideal S1024x1024 .f32) bitsLt_bf16_f32 :=
    (W2_of_ne m ρ c main_v15 (by decide)).trans (W1_v15 m ρ c)
  have e2 : Arrays1.warr1 (V2 m ρ) c = truncf .bf16 ((m ((c : Thread nD τ).loc main_arg5)) : FVec Ideal S8000x1024 .f32) bitsLt_bf16_f32 :=
    (W2_of_ne m ρ c main_v16 (by decide)).trans (W1_v16 m ρ c)
  have e3 : Arrays1.garr1 (V2 m ρ) c
      = shapeCast S8192x1 (Cert.Spec.rowGate (n := 8192) 2000#32 10000#32 bcast_S_S8192 (m ((c : Thread nD τ).loc main_arg1))) shapeCasts_S8192_S8192x1 :=
    (W2_of_ne m ρ c main_v6 (by decide)).trans (W1_v6 m ρ c)
  exact (congr (congr (congr (congrArg Arrays1.tail0Of e0) e1) e2) e3).trans (tail0Of_eq _ _ _ _)

/-- The second tail's result at the end of the run. -/
theorem res22 (c : Dev nD) : (W4 m ρ c (Proc.devRef .tc main_v22) : FVec Ideal S8192x20000 .f32)
    = Cert.Spec.gated (M := 8192) (K := 1024) (H := 256) (N := 20000) (m ((c : Thread nD τ).loc main_arg0)) (m ((c : Thread nD τ).loc main_arg6)) (m ((c : Thread nD τ).loc main_arg7))
        (Cert.Spec.rowGate (n := 8192) 10000#32 30000#32 bcast_S_S8192 (m ((c : Thread nD τ).loc main_arg1))) := by
  refine (W4_arr m ρ c 4).trans ((Arrays2.final2 (V3 m ρ) c).trans ?_)
  have e0 : Arrays2.xarr2 (V3 m ρ) c = (m ((c : Thread nD τ).loc main_arg0)) := (W3_arg0 m ρ c).trans ((W2_arg0 m ρ c).trans (W1_arg0 m ρ c))
  have e1 : Arrays2.uarr2 (V3 m ρ) c = truncf .bf16 ((m ((c : Thread nD τ).loc main_arg6)) : FVec Ideal S256x1024 .f32) bitsLt_bf16_f32 :=
    (W3_of_ne m ρ c main_v17 (by decide)).trans ((W2_of_ne m ρ c main_v17 (by decide)).trans (W1_v17 m ρ c))
  have e2 : Arrays2.warr2 (V3 m ρ) c = truncf .bf16 ((m ((c : Thread nD τ).loc main_arg7)) : FVec Ideal S20000x256 .f32) bitsLt_bf16_f32 :=
    (W3_of_ne m ρ c main_v18 (by decide)).trans ((W2_of_ne m ρ c main_v18 (by decide)).trans (W1_v18 m ρ c))
  have e3 : Arrays2.garr2 (V3 m ρ) c
      = shapeCast S8192x1 (Cert.Spec.rowGate (n := 8192) 10000#32 30000#32 bcast_S_S8192 (m ((c : Thread nD τ).loc main_arg1))) shapeCasts_S8192_S8192x1 :=
    (W3_of_ne m ρ c main_v13 (by decide)).trans ((W2_of_ne m ρ c main_v13 (by decide)).trans (W1_v13 m ρ c))
  exact (congr (congr (congr (congrArg Arrays2.tail1Of e0) e1) e2) e3).trans (tail1Of_eq _ _ _ _)

/-! ## The run -/

/-- The kernel program's run with its three results as the specification's functions of the arguments. -/
theorem run : θ_run defs (onTc (τ := τ) (main (F := Ideal))) ⟨m, fun _ => 0, ρ⟩ fun r => ∀ c : Dev nD,
      r.2.mem ((c.tc : Thread nD τ).loc main_v20)
        = Cert.Spec.affine (M := 8192) (K := 1024) (N := 2002) (m ((c.tc : Thread nD τ).loc main_arg0)) (m ((c.tc : Thread nD τ).loc main_arg2)) (m ((c.tc : Thread nD τ).loc main_arg3))
      ∧ r.2.mem ((c.tc : Thread nD τ).loc main_v21)
        = Cert.Spec.gated (M := 8192) (K := 1024) (H := 1024) (N := 8000) (m ((c.tc : Thread nD τ).loc main_arg0)) (m ((c.tc : Thread nD τ).loc main_arg4)) (m ((c.tc : Thread nD τ).loc main_arg5))
            (Cert.Spec.rowGate (n := 8192) 2000#32 10000#32 bcast_S_S8192 (m ((c.tc : Thread nD τ).loc main_arg1)))
      ∧ r.2.mem ((c.tc : Thread nD τ).loc main_v22)
        = Cert.Spec.gated (M := 8192) (K := 1024) (H := 256) (N := 20000) (m ((c.tc : Thread nD τ).loc main_arg0)) (m ((c.tc : Thread nD τ).loc main_arg6)) (m ((c.tc : Thread nD τ).loc main_arg7))
            (Cert.Spec.rowGate (n := 8192) 10000#32 30000#32 bcast_S_S8192 (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
      ⟨(h c).1.trans (res20 m ρ c), (h c).2.1.trans (res21 m ρ c), (h c).2.2.1.trans (res22 m ρ c), (h c).2.2.2⟩)
    (Results.run_results (F := Ideal) m ρ)

end Cert.KernelIdeal.KValue

end
-- ==== Proof.LibHostDot.lean ====
/-
  The host's matrix product `A B` read at a row and a column.

  For an `M × K` matrix `A` and a `K × N` matrix `B`, the host's `dot_general` contracting the left operand's
  columns with the right operand's rows is, on the extended reals, `Σₜ A[p, t] · B[t, q]` at row `p` and column
  `q`: the sum over the one-axis contraction index is re-indexed by that axis's coordinate `t`, which sits in the
  second place of the left operand's index and in the first place of the right operand's.
-/
import Idealize.ShloMosaic.PureOps.Ideal.Laws
import Idealize.ShloMosaic.Lib.ValueIdx

noncomputable section

open scoped BigOperators

namespace Idealize.ShloMosaic.HostDot

open Idealize.ShloMosaic Idealize.ShloMosaic.ValueIdx

/-- `A B` on the host, at row `p` and column `q`, is `Σₜ A[p, t] · B[t, q]`. -/
theorem dotGeneral_nn_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    Host.dotGeneral (⟨[1], [0], [0], [1], [], [], w⟩ : DotDims ⟨2, ![M, K]⟩ ⟨2, ![K, N]⟩ ⟨2, ![M, N]⟩) prec A B (ix2 p q)
      = ∑ t : Fin K, A (ix2 p t) * B (ix2 t q) := by
  show FloatOps.dotGeneral _ prec _ A B (ix2 p q) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

end Idealize.ShloMosaic.HostDot

end
-- ==== Proof.LibRowAffine.lean ====
/-
  Rows through an affine layer, read at a row and a column.

  Three readings on arrays of literal extents. The host's `A Wᵀ` written as "transpose `W`, then the plain product":
  at row `p` and column `q` it is `Σₜ A[p, t] · W[q, t]` on the extended reals — the transpose swaps the two
  coordinates of `W`, and the plain product contracts `A`'s columns with the transposed matrix's rows. A vector made
  a single row and that row repeated down `m` rows reads the vector at the column. A scalar constant spread over any
  shape reads the constant's value.
-/
import Idealize.ShloMosaic.PureOps.Ideal.Laws
import Idealize.ShloMosaic.Lib.ValueIdx
import Idealize.ShloMosaic.Lib.Pipeline.Value
import proofs.«159933_j25168508355076_1_alg».proof.Proof.LibHostDot
import proofs.«159933_j25168508355076_1_alg».proof.Proof.LibMatrixReads

noncomputable section

open scoped BigOperators

namespace Idealize.ShloMosaic.RowAffine

open Idealize.ShloMosaic Idealize.ShloMosaic.ValueIdx

/-- `A Wᵀ` on the host, the transpose taken first: at row `p` and column `q` it is `Σₜ A[p, t] · W[q, t]`. -/
theorem dotGeneral_transposed_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (W : FVec Ideal ⟨2, ![N, K]⟩ φ₂)
    (ht : (⟨2, ![N, K]⟩ : Shape).Transposes [1, 0] ⟨2, ![K, N]⟩) (p : Fin M) (q : Fin N) :
    Host.dotGeneral (⟨[1], [0], [0], [1], [], [], w⟩ : DotDims ⟨2, ![M, K]⟩ ⟨2, ![K, N]⟩ ⟨2, ![M, N]⟩) prec A
        (transpose ⟨2, ![K, N]⟩ [1, 0] W ht) (ix2 p q)
      = ∑ t : Fin K, A (ix2 p t) * W (ix2 q t) := by
  rw [HostDot.dotGeneral_nn_apply]
  refine Finset.sum_congr rfl fun t _ => ?_
  rw [MatrixReads.transpose2_apply]

/-- A vector laid as a single row, the row then repeated down `m` rows: at row `p` and column `q` it is the
    vector's entry `q`. -/
theorem vecDownRows_apply {α : Type} (m n : Nat) (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  have hq := q.isLt
  rw [broadcastInDim_apply ![0, 1] h2 _ (ix2 p q) (ix2 (0 : Fin 1) q) (fun a => by
    match a with
    | ⟨0, _⟩ => show (0 : Nat) = if (1 : Nat) = 1 then 0 else p.val; rw [if_pos rfl]
    | ⟨1, _⟩ =>
      show q.val = if n = 1 then 0 else q.val
      split_ifs with hn
      · omega
      · rfl)]
  exact broadcastInDim_apply ![1] h1 b (ix2 (0 : Fin 1) q) (ix1 q) (fun a => by
    match a with
    | ⟨0, _⟩ =>
      show q.val = if n = 1 then 0 else q.val
      split_ifs with hn
      · omega
      · rfl)

/-- A scalar float constant spread over a shape reads the constant's value at every index. -/
theorem scalarSpread_apply {t : Shape} (wd : BitVec 32) (h : (⟨0, ![]⟩ : Shape).BroadcastsInDim t ![]) (i : t.Idx) :
    broadcastInDim t ![] h (constant (F := Ideal) ⟨0, ![]⟩ .f32 wd) i = Ideal.ofBits .f32 wd :=
  broadcastInDim_apply ![] h _ i ix0 (fun a => a.elim0)

end Idealize.ShloMosaic.RowAffine

end
-- ==== Proof.RefValue.lean ====
/-
  The reference's three results are the specification's functions of the arguments.

  The reference computes the head logits as `x · head_wᵀ + head_b` with the transpose taken first and the bias laid
  as a row and repeated down the rows: at row `p`, column `q` that is `Σₜ x[p, t] · w[q, t] + b[q]`. Each tail is two
  such products in a row, `Σₕ (Σₜ x[p, t] · w₁[h, t]) · w₂[q, h]`, times the cluster's row gate made a column and
  repeated along the columns, which reads the gate at the row. The gate itself is the composite of comparisons the
  specification names, operation for operation.
-/
import proofs.«159933_j25168508355076_1_alg».proof.Proof.Gen.ReferenceIdeal.Read
import proofs.«159933_j25168508355076_1_alg».proof.Proof.Spec
import proofs.«159933_j25168508355076_1_alg».proof.Proof.LibRowAffine

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The head logits: the host's `x · wᵀ` plus the bias row repeated down the rows. -/
theorem head_eq (x0 : (⟨S8192x1024, .f32⟩ : BufTy).Contents (Elt Ideal)) (x2 : (⟨S2002x1024, .f32⟩ : BufTy).Contents (Elt Ideal)) (x3 : (⟨S2002, .f32⟩ : BufTy).Contents (Elt Ideal)) :
    val_main_v4 (F := Ideal) x0 x2 x3 = Cert.Spec.affine (M := 8192) (K := 1024) (N := 2002) x0 x2 x3 := by
  funext i
  obtain ⟨p, q, rfl⟩ : ∃ (p : Fin 8192) (q : Fin 2002), i = ix2 p q := ⟨i 0, i 1, eq_ix2 i⟩
  rw [Cert.Spec.affine_apply]
  unfold val_main_v4 val_main_v3 val_main_v2 val_main_v1 val_main_v0
  show Host.dotGeneral (F := Ideal) dot_S8192x1024_S1024x2002_S8192x2002_1_0_0_1_n_n none x0
        (transpose S1024x2002 [1, 0] x2 transposes_S2002x1024_S1024x2002_1_0) (ix2 p q)
      + broadcastInDim S8192x2002 ![0, 1] bcast_S1x2002_S8192x2002_0_1 (broadcastInDim S1x2002 ![1] bcast_S2002_S1x2002_1 x3) (ix2 p q) = _
  rw [RowAffine.vecDownRows_apply]
  refine congrArg (· + x3 (ix1 q)) ?_
  exact RowAffine.dotGeneral_transposed_apply dot_S8192x1024_S1024x2002_S8192x2002_1_0_0_1_n_n_wf none x0 x2
    transposes_S2002x1024_S1024x2002_1_0 p q

/-- The first cluster's gate is the specification's, operation for operation. -/
theorem gate0_eq (x1 : (⟨S8192, .i32⟩ : BufTy).Contents (Elt Ideal)) :
    val_main_v10 (F := Ideal) x1 = Cert.Spec.rowGate (n := 8192) 2000#32 10000#32 bcast_S_S8192 x1 := rfl

/-- The second cluster's gate is the specification's, operation for operation. -/
theorem gate1_eq (x1 : (⟨S8192, .i32⟩ : BufTy).Contents (Elt Ideal)) :
    val_main_v16 (F := Ideal) x1 = Cert.Spec.rowGate (n := 8192) 10000#32 30000#32 bcast_S_S8192 x1 := rfl

/-- The first gate made a column and repeated along 8000 columns reads the gate at the row. -/
theorem gate0_apply (x1 : (⟨S8192, .i32⟩ : BufTy).Contents (Elt Ideal)) (p : Fin 8192) (q : Fin 8000) :
    val_main_v22 (F := Ideal) x1 (ix2 p q) = Cert.Spec.rowGate (n := 8192) 2000#32 10000#32 bcast_S_S8192 x1 (ix1 p) := by
  rw [val_main_v22_apply, val_main_v21_apply, gate0_eq]
  exact congrArg _ (funext fun a => match a with | ⟨0, _⟩ => rfl)

/-- The second gate made a column and repeated along 20000 columns reads the gate at the row. -/
theorem gate1_apply (x1 : (⟨S8192, .i32⟩ : BufTy).Contents (Elt Ideal)) (p : Fin 8192) (q : Fin 20000) :
    val_main_v29 (F := Ideal) x1 (ix2 p q) = Cert.Spec.rowGate (n := 8192) 10000#32 30000#32 bcast_S_S8192 x1 (ix1 p) := by
  rw [val_main_v29_apply, val_main_v28_apply, gate1_eq]
  exact congrArg _ (funext fun a => match a with | ⟨0, _⟩ => rfl)

/-- The first tail: two products with transposed weights, then the gate. -/
theorem tail0_eq (x0 : (⟨S8192x1024, .f32⟩ : BufTy).Contents (Elt Ideal)) (x1 : (⟨S8192, .i32⟩ : BufTy).Contents (Elt Ideal)) (x4 : (⟨S1024x1024, .f32⟩ : BufTy).Contents (Elt Ideal)) (x5 : (⟨S8000x1024, .f32⟩ : BufTy).Contents (Elt Ideal)) :
    val_main_v23 (F := Ideal) x0 x1 x4 x5
      = Cert.Spec.gated (M := 8192) (K := 1024) (H := 1024) (N := 8000) x0 x4 x5 (Cert.Spec.rowGate (n := 8192) 2000#32 10000#32 bcast_S_S8192 x1) := by
  funext i
  obtain ⟨p, q, rfl⟩ : ∃ (p : Fin 8192) (q : Fin 8000), i = ix2 p q := ⟨i 0, i 1, eq_ix2 i⟩
  rw [Cert.Spec.gated_apply]
  unfold val_main_v23
  show val_main_v20 (F := Ideal) x0 x4 x5 (ix2 p q) * val_main_v22 (F := Ideal) x1 (ix2 p q) = _
  rw [gate0_apply]
  refine congrArg (· * Cert.Spec.rowGate (n := 8192) 2000#32 10000#32 bcast_S_S8192 x1 (ix1 p)) ?_
  unfold val_main_v20 val_main_v19
  refine (RowAffine.dotGeneral_transposed_apply dot_S8192x1024_S1024x8000_S8192x8000_1_0_0_1_n_n_wf none
    (val_main_v18 (F := Ideal) x0 x4) x5 transposes_S8000x1024_S1024x8000_1_0 p q).trans ?_
  refine Finset.sum_congr rfl fun h _ => congrArg (· * x5 (ix2 q h)) ?_
  unfold val_main_v18 val_main_v17
  exact RowAffine.dotGeneral_transposed_apply dot_S8192x1024_S1024x1024_S8192x1024_1_0_0_1_n_n_wf none x0 x4
    transposes_S1024x1024_S1024x1024_1_0 p h

/-- The second tail: the same, with a hidden layer of 256. -/
theorem tail1_eq (x0 : (⟨S8192x1024, .f32⟩ : BufTy).Contents (Elt Ideal)) (x1 : (⟨S8192, .i32⟩ : BufTy).Contents (Elt Ideal)) (x6 : (⟨S256x1024, .f32⟩ : BufTy).Contents (Elt Ideal)) (x7 : (⟨S20000x256, .f32⟩ : BufTy).Contents (Elt Ideal)) :
    val_main_v30 (F := Ideal) x0 x1 x6 x7
      = Cert.Spec.gated (M := 8192) (K := 1024) (H := 256) (N := 20000) x0 x6 x7 (Cert.Spec.rowGate (n := 8192) 10000#32 30000#32 bcast_S_S8192 x1) := by
  funext i
  obtain ⟨p, q, rfl⟩ : ∃ (p : Fin 8192) (q : Fin 20000), i = ix2 p q := ⟨i 0, i 1, eq_ix2 i⟩
  rw [Cert.Spec.gated_apply]
  unfold val_main_v30
  show val_main_v27 (F := Ideal) x0 x6 x7 (ix2 p q) * val_main_v29 (F := Ideal) x1 (ix2 p q) = _
  rw [gate1_apply]
  refine congrArg (· * Cert.Spec.rowGate (n := 8192) 10000#32 30000#32 bcast_S_S8192 x1 (ix1 p)) ?_
  unfold val_main_v27 val_main_v26
  refine (RowAffine.dotGeneral_transposed_apply dot_S8192x256_S256x20000_S8192x20000_1_0_0_1_n_n_wf none
    (val_main_v25 (F := Ideal) x0 x6) x7 transposes_S20000x256_S256x20000_1_0 p q).trans ?_
  refine Finset.sum_congr rfl fun h _ => congrArg (· * x7 (ix2 q h)) ?_
  unfold val_main_v25 val_main_v24
  exact RowAffine.dotGeneral_transposed_apply dot_S8192x1024_S1024x256_S8192x256_1_0_0_1_n_n_wf none x0 x6
    transposes_S256x1024_S1024x256_1_0 p h

/-- The reference's run with its three results as the specification's functions of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = Cert.Spec.affine (M := 8192) (K := 1024) (N := 2002) (m ((c.tc : Thread nD τ).loc main_arg0)) (m ((c.tc : Thread nD τ).loc main_arg2)) (m ((c.tc : Thread nD τ).loc main_arg3))
      ∧ r.2.mem ((c.tc : Thread nD τ).loc main_v23)
        = Cert.Spec.gated (M := 8192) (K := 1024) (H := 1024) (N := 8000) (m ((c.tc : Thread nD τ).loc main_arg0)) (m ((c.tc : Thread nD τ).loc main_arg4)) (m ((c.tc : Thread nD τ).loc main_arg5))
            (Cert.Spec.rowGate (n := 8192) 2000#32 10000#32 bcast_S_S8192 (m ((c.tc : Thread nD τ).loc main_arg1)))
      ∧ r.2.mem ((c.tc : Thread nD τ).loc main_v30)
        = Cert.Spec.gated (M := 8192) (K := 1024) (H := 256) (N := 20000) (m ((c.tc : Thread nD τ).loc main_arg0)) (m ((c.tc : Thread nD τ).loc main_arg6)) (m ((c.tc : Thread nD τ).loc main_arg7))
            (Cert.Spec.rowGate (n := 8192) 10000#32 30000#32 bcast_S_S8192 (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
      ⟨(h c).1.trans ((val_main_v4_eq _ _ _).trans (head_eq _ _ _)),
       (h c).2.1.trans ((val_main_v23_eq _ _ _ _).trans (tail0_eq _ _ _ _)),
       (h c).2.2.1.trans ((val_main_v30_eq _ _ _ _).trans (tail1_eq _ _ _ _)),
       (h c).2.2.2⟩)
    (Cert.ReferenceIdeal.Value.run (F := Ideal) m ρ)

end Cert.ReferenceIdeal.RefValue

end
-- ==== Proof.lean ====
/-
  The adaptive-softmax forward pass, as three kernel regions, against its plain reference, over the extended reals.

  Both programs produce three arrays from rows `x` and their targets. The head logits are `x · head_wᵀ + head_b`.
  Each tail cluster sends the rows through two linear layers, `(x · w₁ᵀ) · w₂ᵀ`, and keeps only the rows whose target
  falls in the cluster's range, multiplying row `p` by the gate `[lo ≤ target[p] < hi]`. The kernel program computes
  each array in its own region, block of rows by block of rows, from weights it first changes to a narrower float
  format; on the extended reals that change is the identity, a product accumulated into zeros is the plain sum
  over the contracted index, and the row blocks tile each result, so every region leaves one whole-array function
  of the arguments. The reference's transposes, products and broadcasts read at an entry give the same sums in the
  same order, and the gate is computed by the same integer comparisons in both, so the results agree entry by entry
  with no algebraic law needed beyond reading both sides at an index; in particular the finiteness of the inputs
  is never used.

  The three frames are the generated runs; the idealization rewrote nothing, so what it preserves is trivial.
-/
import proofs.«159933_j25168508355076_1_alg».proof.Defs
import proofs.«159933_j25168508355076_1_alg».proof.Proof.Gen.Kernel
import proofs.«159933_j25168508355076_1_alg».proof.Proof.Gen.Kernel.Frame
import proofs.«159933_j25168508355076_1_alg».proof.Proof.Gen.KernelIdeal
import proofs.«159933_j25168508355076_1_alg».proof.Proof.Gen.KernelIdeal.Frame
import proofs.«159933_j25168508355076_1_alg».proof.Proof.Gen.ReferenceIdeal
import proofs.«159933_j25168508355076_1_alg».proof.Proof.Gen.Pre_finite_inputs
import proofs.«159933_j25168508355076_1_alg».proof.Proof.Gen.ReferenceIdeal.Run
import proofs.«159933_j25168508355076_1_alg».proof.Proof.Gen.ReferenceIdeal.Read
import proofs.«159933_j25168508355076_1_alg».proof.Proof.KernelValue
import proofs.«159933_j25168508355076_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and leaves its arguments as launched: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs end with the same three arrays: the head's affine layer
    and the two gated tails, each the same function of the arguments on both sides. -/
theorem algebraic : Cert.algebraic_KernelIdeal_ReferenceIdeal := by
  intro m ρ m' ρ' _ hagree
  refine ⟨_, _, _, Cert.KernelIdeal.KValue.run m ρ, ?_⟩
  refine (θ_run Cert.ReferenceIdeal.defs _ _).mono (fun r h c => ?_) (Cert.ReferenceIdeal.RefValue.run m' ρ')
  obtain ⟨h0, h1, h2, hr⟩ := h c
  obtain ⟨a0, a1, a2, a3, a4, a5, a6, a7⟩ := hagree c
  refine ⟨h0.trans ?_, h1.trans ?_, h2.trans ?_, hr⟩
  · rw [a0, a2, a3]
  · rw [a0, a1, a4, a5]
  · rw [a0, a1, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
